-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x151 : Shape := ⟨3, ![16, 900, 151]⟩
abbrev S16x900x4 : Shape := ⟨3, ![16, 900, 4]⟩
abbrev S16x100 : Shape := ⟨2, ![16, 100]⟩
abbrev S16x100x4 : Shape := ⟨3, ![16, 100, 4]⟩
abbrev S_ : Shape := ⟨0, ![]⟩

class Facts : Prop where
  bcast_S_S16x900x151 : S_.BroadcastsInDim S16x900x151 (![] : Fin 0 → Fin S16x900x151.rank)
  reducesTo_S16x900x151_S_d0_1_2 : S16x900x151.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S16x100x4 : S_.BroadcastsInDim S16x100x4 (![] : Fin 0 → Fin S16x100x4.rank)
  reducesTo_S16x100x4_S_d0_1_2 : S16x100x4.ReducesTo [0, 1, 2] S_
  bcast_S_S16x100 : S_.BroadcastsInDim S16x100 (![] : Fin 0 → Fin S16x100.rank)
  reducesTo_S16x100_S_d0_1 : S16x100.ReducesTo [0, 1] S_

variable [Facts]

def fn_part1 {F : FTy → Type} [FloatOps F] (main_arg2 : IVec S16x100 32) (main_v13 : IVec S_ 1) (main_v15 : IVec S16x100 1) (main_c_5 : IVec S_ 1) : IVec S_ 1 :=
  let main_v16 : IVec S_ 1 := (fun x v => Host.reduce IntOp.andi x v reducesTo_S16x100_S_d0_1 h_S_) main_v15 main_c_5
  let main_v17 : IVec S_ 1 := andi main_v13 main_v16
  let main_c_6 : IVec S_ 32 := constantI S_ 32 151#32
  let main_v18 : IVec S16x100 32 := broadcastInDim S16x100 ![] bcast_S_S16x100 main_c_6
  let main_v19 : IVec S16x100 1 := cmpi .slt main_arg2 main_v18
  let main_c_7 : IVec S_ 1 := constantI S_ 1 1#1
  let main_v20 : IVec S_ 1 := (fun x v => Host.reduce IntOp.andi x v reducesTo_S16x100_S_d0_1 h_S_) main_v19 main_c_7
  let main_v21 : IVec S_ 1 := andi main_v17 main_v20
  main_v21

def fn {F : FTy → Type} [FloatOps F] (main_arg0 : FVec F S16x900x151 .f32) (main_arg1 : FVec F S16x900x4 .f32) (main_arg2 : IVec S16x100 32) (main_arg3 : FVec F S16x100x4 .f32) : IVec S_ 1 :=
  let main_v0 : FVec F S16x900x151 .f32 := Host.absf main_arg0
  let main_cst : FVec F S_ .f32 := constant S_ .f32 0x7F800000#32
  let main_v1 : FVec F S16x900x151 .f32 := broadcastInDim S16x900x151 ![] bcast_S_S16x900x151 main_cst
  let main_v2 : IVec S16x900x151 1 := cmpf .olt main_v0 main_v1
  let main_c : IVec S_ 1 := constantI S_ 1 1#1
  let main_v3 : IVec S_ 1 := (fun x v => Host.reduce IntOp.andi x v reducesTo_S16x900x151_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S16x100x4 .f32 := Host.absf main_arg3
  let main_cst_2 : FVec F S_ .f32 := constant S_ .f32 0x7F800000#32
  let main_v10 : FVec F S16x100x4 .f32 := broadcastInDim S16x100x4 ![] bcast_S_S16x100x4 main_cst_2
  let main_v11 : IVec S16x100x4 1 := cmpf .olt main_v9 main_v10
  let main_c_3 : IVec S_ 1 := constantI S_ 1 1#1
  let main_v12 : IVec S_ 1 := (fun x v => Host.reduce IntOp.andi x v reducesTo_S16x100x4_S_d0_1_2 h_S_) main_v11 main_c_3
  let main_v13 : IVec S_ 1 := andi main_v8 main_v12
  let main_c_4 : IVec S_ 32 := constantI S_ 32 0#32
  let main_v14 : IVec S16x100 32 := broadcastInDim S16x100 ![] bcast_S_S16x100 main_c_4
  let main_v15 : IVec S16x100 1 := cmpi .sge main_arg2 main_v14
  let main_c_5 : IVec S_ 1 := constantI S_ 1 1#1
  fn_part1 (F := F) main_arg2 main_v13 main_v15 main_c_5
-- ==== Kernel.lean ====
abbrev S16x900x151 : Shape := ⟨3, ![16, 900, 151]⟩
abbrev S16x900x4 : Shape := ⟨3, ![16, 900, 4]⟩
abbrev S16x100 : Shape := ⟨2, ![16, 100]⟩
abbrev S16x100x4 : Shape := ⟨3, ![16, 100, 4]⟩
abbrev S14400x151 : Shape := ⟨2, ![14400, 151]⟩
abbrev S14400x4 : Shape := ⟨2, ![14400, 4]⟩
abbrev S1600x4 : Shape := ⟨2, ![1600, 4]⟩
abbrev S4x1600 : Shape := ⟨2, ![4, 1600]⟩
abbrev S1600 : Shape := ⟨1, ![1600]⟩
abbrev S151 : Shape := ⟨1, ![151]⟩
abbrev S151x1 : Shape := ⟨2, ![151, 1]⟩
abbrev S1x1600 : Shape := ⟨2, ![1, 1600]⟩
abbrev S151x1600 : Shape := ⟨2, ![151, 1600]⟩
abbrev S14400x1600 : Shape := ⟨2, ![14400, 1600]⟩
abbrev S400x151 : Shape := ⟨2, ![400, 151]⟩
abbrev S400x4 : Shape := ⟨2, ![400, 4]⟩
abbrev S400x1600 : Shape := ⟨2, ![400, 1600]⟩
abbrev S400 : Shape := ⟨1, ![400]⟩
abbrev S400x1 : Shape := ⟨2, ![400, 1]⟩
abbrev S16x900x1600 : Shape := ⟨3, ![16, 900, 1600]⟩

abbrev nBuf : Space → Nat
  | .hbm => 18
  | .vmem => 8
  | .smem => 0
  | _ => 0

abbrev bufTy : (tb : Table) → Fin (tcTables nBuf tb) → BufTy
  | .hbm, ⟨0, _⟩ => ⟨S16x900x151, .f32⟩
  | .hbm, ⟨1, _⟩ => ⟨S16x900x4, .f32⟩
  | .hbm, ⟨2, _⟩ => ⟨S16x100, .i32⟩
  | .hbm, ⟨3, _⟩ => ⟨S16x100x4, .f32⟩
  | .hbm, ⟨4, _⟩ => ⟨S14400x151, .f32⟩
  | .hbm, ⟨5, _⟩ => ⟨S14400x4, .f32⟩
  | .hbm, ⟨6, _⟩ => ⟨S1600x4, .f32⟩
  | .hbm, ⟨7, _⟩ => ⟨S4x1600, .f32⟩
  | .hbm, ⟨8, _⟩ => ⟨S1600, .i32⟩
  | .hbm, ⟨9, _⟩ => ⟨S151, .i32⟩
  | .hbm, ⟨10, _⟩ => ⟨S151x1, .i32⟩
  | .hbm, ⟨11, _⟩ => ⟨S1x1600, .i32⟩
  | .hbm, ⟨12, _⟩ => ⟨S151x1600, .i32⟩
  | .hbm, ⟨13, _⟩ => ⟨S151x1600, .i32⟩
  | .hbm, ⟨14, _⟩ => ⟨S151x1600, .i1⟩
  | .hbm, ⟨15, _⟩ => ⟨S151x1600, .bf16⟩
  | .hbm, ⟨16, _⟩ => ⟨S14400x1600, .f32⟩
  | .hbm, ⟨17, _⟩ => ⟨S16x900x1600, .f32⟩
  | .local _ .vmem, ⟨0, _⟩ => ⟨S400x151, .f32⟩
  | .local _ .vmem, ⟨1, _⟩ => ⟨S400x151, .f32⟩
  | .local _ .vmem, ⟨2, _⟩ => ⟨S400x4, .f32⟩
  | .local _ .vmem, ⟨3, _⟩ => ⟨S400x4, .f32⟩
  | .local _ .vmem, ⟨4, _⟩ => ⟨S4x1600, .f32⟩
  | .local _ .vmem, ⟨5, _⟩ => ⟨S151x1600, .bf16⟩
  | .local _ .vmem, ⟨6, _⟩ => ⟨S400x1600, .f32⟩
  | .local _ .vmem, ⟨7, _⟩ => ⟨S400x1600, .f32⟩
  | _, _ => ⟨S16x900x151, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x151 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S151x1600 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x900x151_S14400x151 : S16x900x151.ShapeCasts S14400x151
  shapeCasts_S16x900x4_S14400x4 : S16x900x4.ShapeCasts S14400x4
  shapeCasts_S16x100x4_S1600x4 : S16x100x4.ShapeCasts S1600x4
  transposes_S1600x4_S4x1600_1_0 : S1600x4.Transposes [1, 0] S4x1600
  shapeCasts_S16x100_S1600 : S16x100.ShapeCasts S1600
  bcast_S151_S151x1_0 : S151.BroadcastsInDim S151x1 (![0] : Fin 1 → Fin S151x1.rank)
  bcast_S1600_S1x1600_1 : S1600.BroadcastsInDim S1x1600 (![1] : Fin 1 → Fin S1x1600.rank)
  bcast_S151x1_S151x1600_0_1 : S151x1.BroadcastsInDim S151x1600 (![0, 1] : Fin 2 → Fin S151x1600.rank)
  bcast_S1x1600_S151x1600_0_1 : S1x1600.BroadcastsInDim S151x1600 (![0, 1] : Fin 2 → Fin S151x1600.rank)
  inb_S400x151_S400x151_0_0 : ∀ a, (![0, 0] : Fin 2 → Nat) a + S400x151.size a ≤ S400x151.size a
  h_S400x151 : 0 < S400x151.numel
  shapeCasts_S400x151_S400x151 : S400x151.ShapeCasts S400x151
  reduces_S400x151_S400 : S400x151.Reduces [1] S400
  shapeCasts_S400_S400x1 : S400.ShapeCasts S400x1
  broadcasts_S400x1_S400x151 : S400x1.Broadcasts S400x151
  bitsLt_bf16_f32 : FTy.bits .bf16 < FTy.bits .f32
  inb_S151x1600_S151x1600_0_0 : ∀ a, (![0, 0] : Fin 2 → Nat) a + S151x1600.size a ≤ S151x1600.size a
  h_S151x1600 : 0 < S151x1600.numel
  shapeCasts_S151x1600_S151x1600 : S151x1600.ShapeCasts S151x1600
  inb_S400x4_S400x1_0_0 : ∀ a, (![0, 0] : Fin 2 → Nat) a + S400x1.size a ≤ S400x4.size a
  h_S400x1 : 0 < S400x1.numel
  shapeCasts_S400x1_S400x1 : S400x1.ShapeCasts S400x1
  inb_S400x4_S400x1_0_1 : ∀ a, (![0, 1] : Fin 2 → Nat) a + S400x1.size a ≤ S400x4.size a
  inb_S400x4_S400x1_0_2 : ∀ a, (![0, 2] : Fin 2 → Nat) a + S400x1.size a ≤ S400x4.size a
  inb_S400x4_S400x1_0_3 : ∀ a, (![0, 3] : Fin 2 → Nat) a + S400x1.size a ≤ S400x4.size a
  inb_S4x1600_S1x1600_0_0 : ∀ a, (![0, 0] : Fin 2 → Nat) a + S1x1600.size a ≤ S4x1600.size a
  h_S1x1600 : 0 < S1x1600.numel
  shapeCasts_S1x1600_S1x1600 : S1x1600.ShapeCasts S1x1600
  inb_S4x1600_S1x1600_1_0 : ∀ a, (![1, 0] : Fin 2 → Nat) a + S1x1600.size a ≤ S4x1600.size a
  inb_S4x1600_S1x1600_2_0 : ∀ a, (![2, 0] : Fin 2 → Nat) a + S1x1600.size a ≤ S4x1600.size a
  inb_S4x1600_S1x1600_3_0 : ∀ a, (![3, 0] : Fin 2 → Nat) a + S1x1600.size a ≤ S4x1600.size a
  broadcasts_S400x1_S400x1600 : S400x1.Broadcasts S400x1600
  broadcasts_S1x1600_S400x1600 : S1x1600.Broadcasts S400x1600
  inb_S400x1600_S400x1600_0_0 : ∀ a, (![0, 0] : Fin 2 → Nat) a + S400x1600.size a ≤ S400x1600.size a
  h_S400x1600 : 0 < S400x1600.numel
  shapeCasts_S14400x1600_S16x900x1600 : S14400x1600.ShapeCasts S16x900x1600
  dot_S400x151_S151x1600_S400x1600_1_0_0_1_n_n_wf : DotDims.WF S400x151 S151x1600 S400x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x151.size a ≤ S14400x151.size a
  hwx0_0 : ∀ i : grid0.Coords, EltTy.bits .f32 = 32 ∨ (Rect.block (s := S14400x151) S400x151.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4.size a ≤ S14400x4.size a
  hwx0_1 : ∀ i : grid0.Coords, EltTy.bits .f32 = 32 ∨ (Rect.block (s := S14400x4) S400x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1600.size a ≤ S4x1600.size a
  hwx0_2 : ∀ i : grid0.Coords, EltTy.bits .f32 = 32 ∨ (Rect.block (s := S4x1600) S4x1600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S151x1600.size a ≤ S151x1600.size a
  hwx0_3 : ∀ i : grid0.Coords, EltTy.bits .bf16 = 32 ∨ (Rect.block (s := S151x1600) S151x1600.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1600.size a ≤ S14400x1600.size a
  hwx0_4 : ∀ i : grid0.Coords, EltTy.bits .f32 = 32 ∨ (Rect.block (s := S14400x1600) S400x1600.size (cc0_transform_4 i) (hinb0_4 i)).WholeWords (EltTy.packing .f32)

variable [Facts₀]

def dot_S400x151_S151x1600_S400x1600_1_0_0_1_n_n : DotDims S400x151 S151x1600 S400x1600 where
  lhsContracting := [1]
  rhsContracting := [0]
  lhsNonContracting := [0]
  rhsNonContracting := [1]
  lhsBatch := []
  rhsBatch := []
  wf := dot_S400x151_S151x1600_S400x1600_1_0_0_1_n_n_wf

abbrev win0_0 : Pipeline.Window sig grid0 :=
  Pipeline.Window.ofSpec (Memref.whole main_v0) S400x151.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S151x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S400x1600.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x151 : Shape := ⟨3, ![16, 900, 151]⟩
abbrev S16x900x4 : Shape := ⟨3, ![16, 900, 4]⟩
abbrev S16x100 : Shape := ⟨2, ![16, 100]⟩
abbrev S16x100x4 : Shape := ⟨3, ![16, 100, 4]⟩
abbrev S14400x151 : Shape := ⟨2, ![14400, 151]⟩
abbrev S_ : Shape := ⟨0, ![]⟩
abbrev S14400 : Shape := ⟨1, ![14400]⟩
abbrev S14400x1 : Shape := ⟨2, ![14400, 1]⟩
abbrev S14400x4 : Shape := ⟨2, ![14400, 4]⟩
abbrev S1600 : Shape := ⟨1, ![1600]⟩
abbrev S1600x4 : Shape := ⟨2, ![1600, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 191
  | .vmem => 0
  | .smem => 0
  | _ => 0

abbrev hbmTy0_0 (i : Nat) : BufTy := match i % 128 with
  | 0 => ⟨S16x900x151, .f32⟩
  | 1 => ⟨S16x900x4, .f32⟩
  | 2 => ⟨S16x100, .i32⟩
  | 3 => ⟨S16x100x4, .f32⟩
  | 4 => ⟨S14400x151, .f32⟩
  | 5 => ⟨S_, .f32⟩
  | 6 => ⟨S14400, .f32⟩
  | 7 => ⟨S_, .f32⟩
  | 8 => ⟨S14400, .f32⟩
  | 9 => ⟨S14400, .f32⟩
  | 10 => ⟨S14400x1, .f32⟩
  | 11 => ⟨S14400x151, .f32⟩
  | 12 => ⟨S14400x151, .f32⟩
  | 13 => ⟨S14400x151, .f32⟩
  | 14 => ⟨S_, .f32⟩
  | 15 => ⟨S14400, .f32⟩
  | 16 => ⟨S14400x1, .f32⟩
  | 17 => ⟨S14400x151, .f32⟩
  | 18 => ⟨S14400x151, .f32⟩
  | 19 => ⟨S14400x4, .f32⟩
  | 20 => ⟨S1600, .i32⟩
  | 21 => ⟨S1600x4, .f32⟩
  | 22 => ⟨S_, .i32⟩
  | 23 => ⟨S1600, .i32⟩
  | 24 => ⟨S1600, .i1⟩
  | 25 => ⟨S_, .i32⟩
  | 26 => ⟨S1600, .i32⟩
  | 27 => ⟨S1600, .i32⟩
  | 28 => ⟨S1600, .i32⟩
  | 29 => ⟨S1600x1, .i32⟩
  | 30 => ⟨S14400x1600, .f32⟩
  | 31 => ⟨S14400x1600, .f32⟩
  | 32 => ⟨S14400x1x4, .f32⟩
  | 33 => ⟨S1x1600x4, .f32⟩
  | 34 => ⟨S14400x1600x4, .f32⟩
  | 35 => ⟨S14400x1600x4, .f32⟩
  | 36 => ⟨S14400x1600x4, .f32⟩
  | 37 => ⟨S14400x1600x4, .f32⟩
  | 38 => ⟨S_, .f32⟩
  | 39 => ⟨S14400x1600, .f32⟩
  | 40 => ⟨S14400x1, .f32⟩
  | 41 => ⟨S14400, .f32⟩
  | 42 => ⟨S14400x1, .f32⟩
  | 43 => ⟨S14400, .f32⟩
  | 44 => ⟨S14400x1, .f32⟩
  | 45 => ⟨S14400, .f32⟩
  | 46 => ⟨S14400x1, .f32⟩
  | 47 => ⟨S14400, .f32⟩
  | 48 => ⟨S_, .f32⟩
  | 49 => ⟨S14400, .f32⟩
  | 50 => ⟨S14400, .f32⟩
  | 51 => ⟨S14400, .f32⟩
  | 52 => ⟨S_, .f32⟩
  | 53 => ⟨S14400, .f32⟩
  | 54 => ⟨S14400, .f32⟩
  | 55 => ⟨S14400, .f32⟩
  | 56 => ⟨S_, .f32⟩
  | 57 => ⟨S14400, .f32⟩
  | 58 => ⟨S14400, .f32⟩
  | 59 => ⟨S14400, .f32⟩
  | 60 => ⟨S_, .f32⟩
  | 61 => ⟨S14400, .f32⟩
  | 62 => ⟨S14400, .f32⟩
  | 63 => ⟨S14400, .f32⟩
  | 64 => ⟨S14400x1, .f32⟩
  | 65 => ⟨S14400x1, .f32⟩
  | 66 => ⟨S14400x1, .f32⟩
  | 67 => ⟨S14400x1, .f32⟩
  | 68 => ⟨S14400x4, .f32⟩
  | 69 => ⟨S1600x1, .f32⟩
  | 70 => ⟨S1600, .f32⟩
  | 71 => ⟨S1600x1, .f32⟩
  | 72 => ⟨S1600, .f32⟩
  | 73 => ⟨S1600x1, .f32⟩
  | 74 => ⟨S1600, .f32⟩
  | 75 => ⟨S1600x1, .f32⟩
  | 76 => ⟨S1600, .f32⟩
  | 77 => ⟨S_, .f32⟩
  | 78 => ⟨S1600, .f32⟩
  | 79 => ⟨S1600, .f32⟩
  | 80 => ⟨S1600, .f32⟩
  | 81 => ⟨S_, .f32⟩
  | 82 => ⟨S1600, .f32⟩
  | 83 => ⟨S1600, .f32⟩
  | 84 => ⟨S1600, .f32⟩
  | 85 => ⟨S_, .f32⟩
  | 86 => ⟨S1600, .f32⟩
  | 87 => ⟨S1600, .f32⟩
  | 88 => ⟨S1600, .f32⟩
  | 89 => ⟨S_, .f32⟩
  | 90 => ⟨S1600, .f32⟩
  | 91 => ⟨S1600, .f32⟩
  | 92 => ⟨S1600, .f32⟩
  | 93 => ⟨S1600x1, .f32⟩
  | 94 => ⟨S1600x1, .f32⟩
  | 95 => ⟨S1600x1, .f32⟩
  | 96 => ⟨S1600x1, .f32⟩
  | 97 => ⟨S1600x4, .f32⟩
  | 98 => ⟨S14400x1, .f32⟩
  | 99 => ⟨S14400, .f32⟩
  | 100 => ⟨S14400x1, .f32⟩
  | 101 => ⟨S14400, .f32⟩
  | 102 => ⟨S14400, .f32⟩
  | 103 => ⟨S14400x1, .f32⟩
  | 104 => ⟨S14400, .f32⟩
  | 105 => ⟨S14400x1, .f32⟩
  | 106 => ⟨S14400, .f32⟩
  | 107 => ⟨S14400, .f32⟩
  | 108 => ⟨S14400, .f32⟩
  | 109 => ⟨S1600x1, .f32⟩
  | 110 => ⟨S1600, .f32⟩
  | 111 => ⟨S1600x1, .f32⟩
  | 112 => ⟨S1600, .f32⟩
  | 113 => ⟨S1600, .f32⟩
  | 114 => ⟨S1600x1, .f32⟩
  | 115 => ⟨S1600, .f32⟩
  | 116 => ⟨S1600x1, .f32⟩
  | 117 => ⟨S1600, .f32⟩
  | 118 => ⟨S1600, .f32⟩
  | 119 => ⟨S1600, .f32⟩
  | 120 => ⟨S14400x2, .f32⟩
  | 121 => ⟨S14400x1x2, .f32⟩
  | 122 => ⟨S1600x2, .f32⟩
  | 123 => ⟨S1x1600x2, .f32⟩
  | 124 => ⟨S14400x1600x2, .f32⟩
  | 125 => ⟨S14400x1600x2, .f32⟩
  | 126 => ⟨S14400x1600x2, .f32⟩
  | 127 => ⟨S14400x2, .f32⟩
  | _ => ⟨S16x900x151, .f32⟩

abbrev hbmTy0_1 (i : Nat) : BufTy := match i % 128 with
  | 0 => ⟨S14400x1x2, .f32⟩
  | 1 => ⟨S1600x2, .f32⟩
  | 2 => ⟨S1x1600x2, .f32⟩
  | 3 => ⟨S14400x1600x2, .f32⟩
  | 4 => ⟨S14400x1600x2, .f32⟩
  | 5 => ⟨S14400x1600x2, .f32⟩
  | 6 => ⟨S14400x1600x2, .f32⟩
  | 7 => ⟨S_, .f32⟩
  | 8 => ⟨S_, .f32⟩
  | 9 => ⟨S14400x1600x2, .f32⟩
  | 10 => ⟨S14400x1600x2, .f32⟩
  | 11 => ⟨S14400x1600x1, .f32⟩
  | 12 => ⟨S14400x1600, .f32⟩
  | 13 => ⟨S14400x1600x1, .f32⟩
  | 14 => ⟨S14400x1600, .f32⟩
  | 15 => ⟨S14400x1600, .f32⟩
  | 16 => ⟨S14400x1, .f32⟩
  | 17 => ⟨S1x1600, .f32⟩
  | 18 => ⟨S14400x1600, .f32⟩
  | 19 => ⟨S14400x1600, .f32⟩
  | 20 => ⟨S14400x1600, .f32⟩
  | 21 => ⟨S14400x1600, .f32⟩
  | 22 => ⟨S14400x1600, .f32⟩
  | 23 => ⟨S14400x2, .f32⟩
  | 24 => ⟨S14400x1x2, .f32⟩
  | 25 => ⟨S1600x2, .f32⟩
  | 26 => ⟨S1x1600x2, .f32⟩
  | 27 => ⟨S14400x1600x2, .f32⟩
  | 28 => ⟨S14400x1600x2, .f32⟩
  | 29 => ⟨S14400x1600x2, .f32⟩
  | 30 => ⟨S14400x2, .f32⟩
  | 31 => ⟨S14400x1x2, .f32⟩
  | 32 => ⟨S1600x2, .f32⟩
  | 33 => ⟨S1x1600x2, .f32⟩
  | 34 => ⟨S14400x1600x2, .f32⟩
  | 35 => ⟨S14400x1600x2, .f32⟩
  | 36 => ⟨S14400x1600x2, .f32⟩
  | 37 => ⟨S14400x1600x2, .f32⟩
  | 38 => ⟨S_, .f32⟩
  | 39 => ⟨S_, .f32⟩
  | 40 => ⟨S14400x1600x2, .f32⟩
  | 41 => ⟨S14400x1600x2, .f32⟩
  | 42 => ⟨S14400x1600x1, .f32⟩
  | 43 => ⟨S14400x1600, .f32⟩
  | 44 => ⟨S14400x1600x1, .f32⟩
  | 45 => ⟨S14400x1600, .f32⟩
  | 46 => ⟨S14400x1600, .f32⟩
  | 47 => ⟨S14400x1600, .f32⟩
  | 48 => ⟨S14400x1600, .f32⟩
  | 49 => ⟨S14400x1600, .f32⟩
  | 50 => ⟨S14400x1600, .f32⟩
  | 51 => ⟨S_, .f32⟩
  | 52 => ⟨S14400x1600, .f32⟩
  | 53 => ⟨S14400x1600, .f32⟩
  | 54 => ⟨S_, .f32⟩
  | 55 => ⟨S14400x1600, .f32⟩
  | 56 => ⟨S14400x1600, .f32⟩
  | 57 => ⟨S14400x1600, .f32⟩
  | 58 => ⟨S_, .f32⟩
  | 59 => ⟨S14400x1600, .f32⟩
  | 60 => ⟨S14400x1600, .f32⟩
  | 61 => ⟨S14400x1600, .f32⟩
  | 62 => ⟨S16x900x1600, .f32⟩
  | _ => ⟨S16x900x151, .f32⟩

abbrev hbmTy (i : Nat) : BufTy := match i / 128 with
  | 0 => hbmTy0_0 i
  | 1 => hbmTy0_1 i
  | _ => ⟨S16x900x151, .f32⟩

abbrev bufTy : (tb : Table) → Fin (tcTables nBuf tb) → BufTy
  | .hbm, ⟨i, _⟩ => hbmTy i
  | _, _ => ⟨S16x900x151, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_11 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_12 : Ref sig .tc := ⟨.hbm, 135, rfl⟩
abbrev main_call0_v0 : Ref sig .tc := ⟨.hbm, 136, rfl⟩
abbrev main_call0_v1 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_13 : Ref sig .tc := ⟨.hbm, 166, rfl⟩
abbrev main_call1_v0 : Ref sig .tc := ⟨.hbm, 167, rfl⟩
abbrev main_call1_v1 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_cst_14 : Ref sig .tc := ⟨.hbm, 179, rfl⟩
abbrev main_v155 : Ref sig .tc := ⟨.hbm, 180, rfl⟩
abbrev main_v156 : Ref sig .tc := ⟨.hbm, 181, rfl⟩
abbrev main_cst_15 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_cst_16 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩

abbrev nD : Nat := 1
abbrev τ : Topo := Topo.v7x

variable {F : FTy → Type} [FloatOps F]

class Facts₀ : Prop where
  shapeCasts_S16x900x151_S14400x151 : S16x900x151.ShapeCasts S14400x151
  reducesTo_S14400x151_S14400_d1 : S14400x151.ReducesTo [1] S14400
  h_S_ : 0 < S_.numel
  bcast_S_S14400 : S_.BroadcastsInDim S14400 (![] : Fin 0 → Fin S14400.rank)
  bcast_S14400_S14400x1_0 : S14400.BroadcastsInDim S14400x1 (![0] : Fin 1 → Fin S14400x1.rank)
  bcast_S14400x1_S14400x151_0_1 : S14400x1.BroadcastsInDim S14400x151 (![0, 1] : Fin 2 → Fin S14400x151.rank)
  shapeCasts_S16x900x4_S14400x4 : S16x900x4.ShapeCasts S14400x4
  shapeCasts_S16x100_S1600 : S16x100.ShapeCasts S1600
  shapeCasts_S16x100x4_S1600x4 : S16x100x4.ShapeCasts S1600x4
  bcast_S_S1600 : S_.BroadcastsInDim S1600 (![] : Fin 0 → Fin S1600.rank)
  bcast_S1600_S1600x1_0 : S1600.BroadcastsInDim S1600x1 (![0] : Fin 1 → Fin S1600x1.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  gather_S14400x151_S1600x1_S14400x1600_0_1_n_n_1_1_144001_wf : GatherDims.WF S14400x151 S1600x1 S14400x1600 [0] [1] [] [1] [] 1 ![14400, 1]

variable [Facts₀]

def gather_S14400x151_S1600x1_S14400x1600_0_1_n_n_1_1_144001 : GatherDims S14400x151 S1600x1 S14400x1600 where
  offsetDims := [0]
  collapsedSliceDims := [1]
  operandBatchingDims := []
  startIndicesBatchingDims := []
  startIndexMap := [1]
  indexVectorDim := 1
  sliceSizes := ![14400, 1]
  wf := gather_S14400x151_S1600x1_S14400x1600_0_1_n_n_1_1_144001_wf

class Facts : Prop extends Facts₀ where

variable [Facts]
-- ==== Proof.Spec.lean ====
/-
  The matching cost both programs compute, as ONE function of the flattened argument arrays, entry by entry, on the
  extended reals. For a query row r (of 14400) and a target column j (of 1600):

    cost r j = -(softmax (logits r)) (label j)  +  5 · ‖box r − tbox j‖₁  −  2 · GIoU (box r) (tbox j)

  with the softmax taken with the row maximum subtracted (exp (x − max) / Σ exp (x − max)), boxes given as
  (cx, cy, w, h), and GIoU = inter/union − (enclosing − union)/enclosing on the corner form of the boxes.
  The float literals are kept as the words the programs spell (0.5, 5, 2, 0, −∞): the same word on both sides is never
  evaluated. Also here: the few laws of the extended reals that join the two programs' arrangements of this value
  (a sum against a one-hot column is the selected entry; the order and signs of the three weighted terms).
-/
import Idealize.ShloMosaic.PureOps.Ideal
import Idealize.ShloMosaic.PureOps.Ideal.Laws
import Idealize.ShloMosaic.Lib.ValueIdx

noncomputable section

namespace Cert.MatchCost

open Idealize.ShloMosaic Idealize.ShloMosaic.ValueIdx

/-! ## The words -/

abbrev half : EReal := Ideal.ofBits .f32 0x3F000000#32
abbrev five : EReal := Ideal.ofBits .f32 0x40A00000#32
abbrev two : EReal := Ideal.ofBits .f32 0x40000000#32
abbrev zero : EReal := Ideal.ofBits .f32 0x00000000#32
abbrev one : EReal := Ideal.ofBits .f32 0x3F800000#32
abbrev negOne : EReal := Ideal.ofBits .f32 0xBF800000#32
abbrev negInf : EReal := Ideal.ofBits .f32 0xFF800000#32

theorem zero_eq : zero = 0 := Ideal.ofBits_zero_f32

theorem one_eq : one = 1 := by
  show Ideal.ofBits .f32 0x3F800000#32 = 1
  simp [Ideal.ofBits, Ideal.ieee, -EReal.coe_mul]; norm_num

theorem negOne_eq : negOne = -1 := by
  show Ideal.ofBits .f32 0xBF800000#32 = -1
  simp [Ideal.ofBits, Ideal.ieee, -EReal.coe_mul]; norm_num

theorem negInf_eq : negInf = ⊥ := by
  show Ideal.ofBits .f32 0xFF800000#32 = ⊥
  simp [Ideal.ofBits, Ideal.ieee]

/-! ## The arrays -/

abbrev Logits := (⟨2, ![14400, 151]⟩ : Shape).Idx → EReal
abbrev Boxes := (⟨2, ![14400, 4]⟩ : Shape).Idx → EReal
abbrev TBoxes := (⟨2, ![1600, 4]⟩ : Shape).Idx → EReal
abbrev Cost := (⟨2, ![14400, 1600]⟩ : Shape).Idx → EReal

/-! ## The class term: a softmax entry -/

/-- The largest logit of row r (the fold of max from −∞ over the 151 classes). -/
def rowMax (L : Logits) (r : Fin 14400) : EReal :=
  (Finset.univ : Finset (Fin 151)).fold max negInf (fun k => L (ix2 r k))

/-- exp (logit − row maximum). -/
def expAt (L : Logits) (r : Fin 14400) (k : Fin 151) : EReal := Ideal.exp (L (ix2 r k) - rowMax L r)

/-- The row's sum of those exponentials. -/
def rowSum (L : Logits) (r : Fin 14400) : EReal := ∑ k : Fin 151, expAt L r k

/-- The softmax probability of class k in row r. -/
def prob (L : Logits) (r : Fin 14400) (k : Fin 151) : EReal := Ideal.div (expAt L r k) (rowSum L r)

/-! ## The box terms -/

/-- The low and high corner of an interval given by centre and width. -/
def lo (c w : EReal) : EReal := c - half * w
def hi (c w : EReal) : EReal := c + half * w

/-- A box's area from (cx, cy, w, h) through its corners. -/
def area (b : Fin 4 → EReal) : EReal := (hi (b 0) (b 2) - lo (b 0) (b 2)) * (hi (b 1) (b 3) - lo (b 1) (b 3))

/-- The length of the overlap of two intervals, clipped below at 0. -/
def overlap (c1 w1 c2 w2 : EReal) : EReal := max (min (hi c1 w1) (hi c2 w2) - max (lo c1 w1) (lo c2 w2)) zero

/-- The length of the smallest interval enclosing both, clipped below at 0. -/
def span (c1 w1 c2 w2 : EReal) : EReal := max (max (hi c1 w1) (hi c2 w2) - min (lo c1 w1) (lo c2 w2)) zero

def inter (b g : Fin 4 → EReal) : EReal := overlap (b 0) (b 2) (g 0) (g 2) * overlap (b 1) (b 3) (g 1) (g 3)
def union (b g : Fin 4 → EReal) : EReal := area b + area g - inter b g
def hull (b g : Fin 4 → EReal) : EReal := span (b 0) (b 2) (g 0) (g 2) * span (b 1) (b 3) (g 1) (g 3)

/-- Generalized IoU of two boxes given as (cx, cy, w, h). -/
def giou (b g : Fin 4 → EReal) : EReal :=
  Ideal.div (inter b g) (union b g) - Ideal.div (hull b g - union b g) (hull b g)

/-- |x| on the extended reals. -/
def absE (x : EReal) : EReal := max x (-x)

/-- The L1 distance of the two boxes' four coordinates, added in order. -/
def l1 (b g : Fin 4 → EReal) : EReal := absE (b 0 - g 0) + absE (b 1 - g 1) + absE (b 2 - g 2) + absE (b 3 - g 3)

/-! ## The cost -/

/-- Row r's box and column j's target box as their four coordinates. -/
abbrev boxOf (B : Boxes) (r : Fin 14400) : Fin 4 → EReal := fun k => B (ix2 r k)
abbrev tboxOf (T : TBoxes) (j : Fin 1600) : Fin 4 → EReal := fun k => T (ix2 j k)

/-- The cost matrix: minus the softmax probability of the target's label, plus five times the L1 box distance, minus
    twice the generalized IoU. -/
def cost (L : Logits) (B : Boxes) (lbl : Fin 1600 → Fin 151) (T : TBoxes) : Cost := fun i =>
  (-(prob L (i 0) (lbl (i 1))) + five * l1 (boxOf B (i 0)) (tboxOf T (i 1))) - two * giou (boxOf B (i 0)) (tboxOf T (i 1))

/-! ## Laws that join the two arrangements -/

/-- A sum of products against a column that is 1 at one class and 0 at the others is that class's factor
    (on the extended reals x · 0 = 0 for every x, so no finiteness is needed). -/
theorem sum_mul_onehot (p oh : Fin 151 → EReal) (l : Fin 151) (h1 : oh l = 1) (h0 : ∀ k, k ≠ l → oh k = 0) :
    ∑ k : Fin 151, p k * oh k = p l := by
  rw [Finset.sum_eq_single l (fun k _ hk => by rw [h0 k hk, mul_zero]) (fun h => absurd (Finset.mem_univ l) h), h1, mul_one]

/-- −1 times x is −x. -/
theorem negOne_mul (x : EReal) : negOne * x = -x := by rw [negOne_eq, neg_one_mul]

/-- max against −∞ on the left is the identity. -/
theorem max_negInf (x : EReal) : max negInf x = x := by rw [negInf_eq]; exact max_eq_right bot_le

/-- The weighted terms in the order 5·d + 1·(−p) + 2·(−g), the sum d started from the word 0, against
    (−p + 5·d) − 2·g. -/
theorem arrange (p d g : EReal) :
    five * (zero + d) + one * (-p) + two * (-g) = (-p + five * d) - two * g := by
  rw [zero_eq, zero_add, one_eq, one_mul, mul_neg, ← sub_eq_add_neg, add_comm (five * d)]

/-- The four absolute differences added from the left are the sum over the four coordinates. -/
theorem l1_eq_sum (b g : Fin 4 → EReal) : l1 b g = ∑ k : Fin 4, absE (b k - g k) := by
  rw [Fin.sum_univ_four]; rfl

end Cert.MatchCost

end
-- ==== Proof.PreDecode.lean ====
import proofs.«429697_j25331717112271_2_alg».proof.Pre_finite_inputs
import Idealize.ShloMosaic.Lib.ReduceAll
import Idealize.ShloMosaic.Lib.ValueIdx
import Idealize.ShloMosaic.PureOps.Ideal

/-!
  The precondition, decoded at the label table. The precondition is one truth value: the conjunction of five
  "for all elements" tests, the last two of which say that every label word, read as a signed integer, is at least 0
  and below 151. A conjunction of truth values that is true has both members true; a "for all" reduction by
  conjunction that is true has every member true; and a 32-bit word whose signed reading lies in [0, 151) has an
  unsigned reading below 151, so it is the word of that class number.
-/

noncomputable section

namespace Cert.MatchCost.Pre

open Cert.Pre_finite_inputs
open Idealize.ShloMosaic Idealize.ShloMosaic.ValueIdx

/-- The shape with no axes has exactly one index. -/
instance : Subsingleton S_.Idx := ⟨fun a b => funext fun d => d.elim0⟩

/-- A 32-bit word whose signed reading is at least 0 and below 151 reads, unsigned, below 151: a nonnegative signed
    reading has the top bit clear, and then the signed and the unsigned readings agree. -/
theorem toNat_lt (w : BitVec 32) (h0 : IntOp.cmpi .sge w 0#32 = 1#1) (h1 : IntOp.cmpi .slt w 151#32 = 1#1) :
    w.toNat < 151 := by
  rw [IntOp.cmpi_sge, show (0#32 : BitVec 32).toInt = 0 from by decide] at h0
  rw [IntOp.cmpi_slt, show (151#32 : BitVec 32).toInt = 151 from by decide] at h1
  have hw := w.isLt
  unfold BitVec.toInt at h0 h1
  split at h1 <;> omega

/-- Under the precondition every label word is the word of a class number below 151. -/
theorem label_words [Cert.Pre_finite_inputs.Facts] {F : FTy → Type} [FloatOps F]
    (a0 : FVec F S16x900x151 .f32) (a1 : FVec F S16x900x4 .f32) (a2 : IVec S16x100 32) (a3 : FVec F S16x100x4 .f32)
    (h : Cert.Pre_finite_inputs.fn (F := F) a0 a1 a2 a3 = fun _ => 1#1) (i : S16x100.Idx) :
    ∃ l : Fin 151, a2 i = BitVec.ofNat 32 l.val := by
  -- the predicate's one value, as the conjunction it is; its last two members are the two tests of the labels
  have e := congrFun h ix0
  unfold Cert.Pre_finite_inputs.fn Cert.Pre_finite_inputs.fn_part1 at e
  simp only [andi, IntOp.andi_eq_one] at e
  obtain ⟨⟨-, hge⟩, hlt⟩ := e
  -- each test is a conjunction over all label positions: read it at position i
  have g0 := Host.reduce_andi_all _ _ _ _ _ hge i
  have g1 := Host.reduce_andi_all _ _ _ _ _ hlt i
  -- the constant compared with, spread over the table, is that constant at every position
  exact ⟨⟨(a2 i).toNat, toNat_lt (a2 i) g0 g1⟩, (BitVec.ofNat_toNat 32 (a2 i)).symm⟩

end Cert.MatchCost.Pre

end
-- ==== Proof.RefValue.lean ====
/-
  The reference side: its cost matrix, read entry by entry, is the specification's cost.

  Each stage of the reference is read at explicit coordinates (query row r, target column j, class k, box coordinate k)
  and identified with the specification's term for it:
    · the softmax of a row: the row maximum as a fold of max from −∞ (and max with −∞ once more is the identity), the
      exponentials of logit − maximum, their sum started from the word 0, the quotient;
    · the class term: the softmax entry gathered at the target's label, negated. A label below 151 is a nonnegative
      32-bit word, so the wrap-around select keeps it, and read signed and clamped into [0, 150] it is the label;
    · the L1 distance: the word 0 plus the four absolute coordinate differences;
    · the boxes in corner form: centre ∓ half the extent, the four columns joined side by side;
    · the areas, the clipped overlap and enclosing lengths on the two axes (a maximum with the word 0 on the left,
      and max commutes), the intersection, union and enclosing areas, the generalized IoU;
    · the weighted sum 5·d + 1·(−p) + 2·(−g), which is (−p + 5·d) − 2·g.
-/
import proofs.«429697_j25331717112271_2_alg».proof.Proof.Gen.ReferenceIdeal.Read
import proofs.«429697_j25331717112271_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.MatchCost.Ref

open Cert.ReferenceIdeal Cert.ReferenceIdeal.Gen Cert.ReferenceIdeal.Read
open Idealize.ShloMosaic Idealize.ShloMosaic.ValueIdx Idealize.ShloMosaic.TcCoe

/-- Row r's index with class k put back on the reduced axis is (r, k). -/
theorem lift_row (h : S14400x151.Reduces [1] S14400) (r : Fin 14400) (k : Fin (S14400x151.size 1)) :
    h.lift (ix1 r) k = ix2 r (⟨k.val, k.isLt⟩ : Fin 151) := by
  funext c; apply Fin.ext
  match c with
  | ⟨0, _⟩ => rfl
  | ⟨1, _⟩ => rfl

/-- The row maximum stage: the fold of max from −∞ over the row. -/
theorem v1_at (x0 : (⟨S16x900x151, .f32⟩ : BufTy).Contents (Elt Ideal)) (r : Fin 14400) :
    val_main_v1 (F := Ideal) x0 (ix1 r) = rowMax (val_main_v0 (F := Ideal) x0) r := by
  unfold val_main_v1
  have h : S14400x151.Reduces [1] S14400 := by decide
  rw [Host.reduce_eq_fold_single FloatOps.maximumf _ _ reducesTo_S14400x151_S14400_d1 h h_S_]
  unfold rowMax
  have hf : (val_main_v0 (F := Ideal) x0 ∘ h.lift (ix1 r)) = fun k : Fin 151 => val_main_v0 (F := Ideal) x0 (ix2 r k) :=
    funext fun k => congrArg (val_main_v0 (F := Ideal) x0) (lift_row h r k)
  exact congrArg (fun f => Finset.fold max negInf f (Finset.univ : Finset (Fin 151))) hf

/-- Taking the maximum with −∞ once more leaves the row maximum. -/
theorem v3_at (x0 : (⟨S16x900x151, .f32⟩ : BufTy).Contents (Elt Ideal)) (r : Fin 14400) :
    val_main_v3 (F := Ideal) x0 (ix1 r) = rowMax (val_main_v0 (F := Ideal) x0) r := by
  rw [val_main_v3_apply, val_main_v2_apply, val_main_cst_0_apply, v1_at]
  exact max_negInf _

/-- The exponential of the logit less its row maximum. -/
theorem v7_at (x0 : (⟨S16x900x151, .f32⟩ : BufTy).Contents (Elt Ideal)) (r : Fin 14400) (k : Fin 151) :
    val_main_v7 (F := Ideal) x0 (ix2 r k) = expAt (val_main_v0 (F := Ideal) x0) r k := by
  rw [val_main_v7_apply, val_main_v6_apply, val_main_v5_apply, val_main_v4_apply]
  have e : idx_main_v4 (idx_main_v5 (ix2 r k)) = ix1 r := by
    funext a; apply Fin.ext; match a with | ⟨0, _⟩ => rfl
  rw [e, v3_at]
  rfl

/-- The row's sum of exponentials, started from the word 0. -/
theorem v8_at (x0 : (⟨S16x900x151, .f32⟩ : BufTy).Contents (Elt Ideal)) (r : Fin 14400) :
    val_main_v8 (F := Ideal) x0 (ix1 r) = rowSum (val_main_v0 (F := Ideal) x0) r := by
  rw [val_main_v8_apply, val_main_cst_1_apply, Ideal.ofBits_def, Ideal.ofBits_zero_f32, zero_add]
  unfold rowSum
  refine Finset.sum_congr rfl fun k _ => ?_
  have e : idx_main_v8 (ix1 r) k = ix2 r k := by
    funext a; apply Fin.ext; match a with | ⟨0, _⟩ => rfl | ⟨1, _⟩ => rfl
  rw [e, v7_at]

/-- The softmax stage: the exponential over the row's sum. -/
theorem v11_at (x0 : (⟨S16x900x151, .f32⟩ : BufTy).Contents (Elt Ideal)) (r : Fin 14400) (k : Fin 151) :
    val_main_v11 (F := Ideal) x0 (ix2 r k) = prob (val_main_v0 (F := Ideal) x0) r k := by
  rw [val_main_v11_apply, val_main_v10_apply, val_main_v9_apply, v7_at]
  have e : idx_main_v9 (idx_main_v10 (ix2 r k)) = ix1 r := by
    funext a; apply Fin.ext; match a with | ⟨0, _⟩ => rfl
  rw [e, v8_at]
  rfl

/-- The gather read at (r, j): the operand at row r and the column the start index j spells, read signed and
    clamped into [0, 150]. -/
theorem gather_at {α : Type} (x : S14400x151.Idx → α) (idx : IVec S1600x1 32) (r : Fin 14400) (j : Fin 1600)
    (c : Fin 151) (hc : min (idx (ix2 j (0 : Fin 1))).toInt.toNat 150 = c.val) :
    Host.gather gather_S14400x151_S1600x1_S14400x1600_0_1_n_n_1_1_144001 x idx (ix2 r j) = x (ix2 r c) := by
  unfold Host.gather
  congr 1
  funext a
  refine Fin.ext ?_
  match a with
  | ⟨0, _⟩ =>
    show gather_S14400x151_S1600x1_S14400x1600_0_1_n_n_1_1_144001.start (ix2 r j) idx 0
      + gather_S14400x151_S1600x1_S14400x1600_0_1_n_n_1_1_144001.batchCoord (ix2 r j) 0
      + gather_S14400x151_S1600x1_S14400x1600_0_1_n_n_1_1_144001.offCoord (ix2 r j) 0 = r.val
    rw [GatherDims.batchCoord_eq_zero _ _ _ List.not_mem_nil]
    unfold GatherDims.start
    rw [dif_neg (by decide)]
    unfold GatherDims.offCoord
    rw [dif_pos (by decide)]
    have key : ∀ (n : Nat) (hn : n < gather_S14400x151_S1600x1_S14400x1600_0_1_n_n_1_1_144001.offsetDims.length), n = 0 →
        ((ix2 r j) (gather_S14400x151_S1600x1_S14400x1600_0_1_n_n_1_1_144001.offsetDims[n]'hn)).val = r.val := by
      intro n hn h0; subst h0; rfl
    rw [Nat.add_zero, Nat.zero_add]
    exact key _ _ (by decide)
  | ⟨1, _⟩ =>
    show gather_S14400x151_S1600x1_S14400x1600_0_1_n_n_1_1_144001.start (ix2 r j) idx 1
      + gather_S14400x151_S1600x1_S14400x1600_0_1_n_n_1_1_144001.batchCoord (ix2 r j) 1
      + gather_S14400x151_S1600x1_S14400x1600_0_1_n_n_1_1_144001.offCoord (ix2 r j) 1 = c.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S14400x151_S1600x1_S14400x1600_0_1_n_n_1_1_144001.startIndexMap from List.mem_singleton.mpr rfl)]
    have hsi : gather_S14400x151_S1600x1_S14400x1600_0_1_n_n_1_1_144001.siIdx (ix2 r j)
        ⟨List.idxOf (1 : Fin 2) gather_S14400x151_S1600x1_S14400x1600_0_1_n_n_1_1_144001.startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    exact hc

/-- A label below 151, as a 32-bit word, is not negative, so the wrap-around select keeps it. -/
theorem label_word : ∀ l : Fin 151,
    Scalar.select (IntOp.cmpi .slt (BitVec.ofNat 32 l.val) 0#32) (IntOp.addi (BitVec.ofNat 32 l.val) 151#32)
      (BitVec.ofNat 32 l.val) = BitVec.ofNat 32 l.val := by
  decide

/-- Read signed and clamped into [0, 150], such a word is the label. -/
theorem label_clamp : ∀ l : Fin 151, min (BitVec.ofNat 32 l.val).toInt.toNat 150 = l.val := by
  decide

/-- The class term: minus the softmax probability of the target's label. -/
theorem v22_at (x0 : (⟨S16x900x151, .f32⟩ : BufTy).Contents (Elt Ideal)) (x2 : (⟨S16x100, .i32⟩ : BufTy).Contents (Elt Ideal)) (lbl : Fin 1600 → Fin 151)
    (hl : ∀ j : Fin 1600, val_main_v13 (F := Ideal) x2 (ix1 j) = BitVec.ofNat 32 (lbl j).val) (r : Fin 14400) (j : Fin 1600) :
    val_main_v22 (F := Ideal) x0 x2 (ix2 r j) = -(prob (val_main_v0 (F := Ideal) x0) r (lbl j)) := by
  have hw : val_main_v20 (F := Ideal) x2 (ix2 j (0 : Fin 1)) = BitVec.ofNat 32 (lbl j).val := by
    rw [val_main_v20_apply, val_main_v19_apply, val_main_v16_apply, val_main_v18_apply, val_main_v15_apply,
      val_main_c_apply, val_main_v17_apply, val_main_c_2_apply]
    have e : idx_main_v20 (ix2 j (0 : Fin 1)) = ix1 j := by
      funext a; apply Fin.ext; match a with | ⟨0, _⟩ => rfl
    rw [e, hl j]
    exact label_word (lbl j)
  rw [val_main_v22_apply]
  unfold val_main_v21
  rw [gather_at _ _ r j (lbl j) (by rw [hw]; exact label_clamp (lbl j)), v11_at]
  rfl

/-- The L1 stage: the word 0 plus the four absolute coordinate differences. -/
theorem v29_at (x1 : (⟨S16x900x4, .f32⟩ : BufTy).Contents (Elt Ideal)) (x3 : (⟨S16x100x4, .f32⟩ : BufTy).Contents (Elt Ideal)) (r : Fin 14400) (j : Fin 1600) :
    val_main_v29 (F := Ideal) x1 x3 (ix2 r j)
      = zero + l1 (boxOf (val_main_v12 (F := Ideal) x1) r) (tboxOf (val_main_v14 (F := Ideal) x3) j) := by
  rw [val_main_v29_apply, val_main_cst_3_apply, l1_eq_sum]
  refine congrArg (zero + ·) (Finset.sum_congr rfl fun k _ => ?_)
  rw [val_main_v28_apply, val_main_v27_apply, val_main_v25_apply, val_main_v23_apply, val_main_v26_apply,
    val_main_v24_apply]
  have e1 : idx_main_v23 (idx_main_v25 (idx_main_v29 (ix2 r j) k)) = ix2 r k := by
    funext a; apply Fin.ext; match a with | ⟨0, _⟩ => rfl | ⟨1, _⟩ => rfl
  have e2 : idx_main_v24 (idx_main_v26 (idx_main_v29 (ix2 r j) k)) = ix2 j k := by
    funext a; apply Fin.ext; match a with | ⟨0, _⟩ => rfl | ⟨1, _⟩ => rfl
  rw [e1, e2]
  rfl

/-! Four one-column pieces joined along the second axis, read at column 0, 1, 2, 3: the piece of that number. -/

theorem concat4_at0 {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (r : Fin N) :
    concatenate (⟨2, ![N, 4]⟩ : Shape) 1 [⟨⟨2, ![N, 1]⟩, y0⟩, ⟨⟨2, ![N, 1]⟩, y1⟩, ⟨⟨2, ![N, 1]⟩, y2⟩, ⟨⟨2, ![N, 1]⟩, y3⟩] h
      (ix2 r (0 : Fin 4)) = y0 (ix2 r (0 : Fin 1)) :=
  concatenate_apply_piece (t := ⟨2, ![N, 4]⟩) (1 : Fin 2)
    [⟨⟨2, ![N, 1]⟩, y0⟩, ⟨⟨2, ![N, 1]⟩, y1⟩, ⟨⟨2, ![N, 1]⟩, y2⟩, ⟨⟨2, ![N, 1]⟩, y3⟩] h (ix2 r (0 : Fin 4))
    0 (by show 0 < 4; decide) ⟨2, ![N, 1]⟩ y0 rfl rfl 0 rfl (ix2 r (0 : Fin 1))
    (fun b hb => by match b with | ⟨0, _⟩ => rfl | ⟨1, _⟩ => exact absurd rfl hb) rfl

theorem concat4_at1 {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (r : Fin N) :
    concatenate (⟨2, ![N, 4]⟩ : Shape) 1 [⟨⟨2, ![N, 1]⟩, y0⟩, ⟨⟨2, ![N, 1]⟩, y1⟩, ⟨⟨2, ![N, 1]⟩, y2⟩, ⟨⟨2, ![N, 1]⟩, y3⟩] h
      (ix2 r (1 : Fin 4)) = y1 (ix2 r (0 : Fin 1)) :=
  concatenate_apply_piece (t := ⟨2, ![N, 4]⟩) (1 : Fin 2)
    [⟨⟨2, ![N, 1]⟩, y0⟩, ⟨⟨2, ![N, 1]⟩, y1⟩, ⟨⟨2, ![N, 1]⟩, y2⟩, ⟨⟨2, ![N, 1]⟩, y3⟩] h (ix2 r (1 : Fin 4))
    1 (by show 1 < 4; decide) ⟨2, ![N, 1]⟩ y1 rfl rfl 1 rfl (ix2 r (0 : Fin 1))
    (fun b hb => by match b with | ⟨0, _⟩ => rfl | ⟨1, _⟩ => exact absurd rfl hb) rfl

theorem concat4_at2 {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (r : Fin N) :
    concatenate (⟨2, ![N, 4]⟩ : Shape) 1 [⟨⟨2, ![N, 1]⟩, y0⟩, ⟨⟨2, ![N, 1]⟩, y1⟩, ⟨⟨2, ![N, 1]⟩, y2⟩, ⟨⟨2, ![N, 1]⟩, y3⟩] h
      (ix2 r (2 : Fin 4)) = y2 (ix2 r (0 : Fin 1)) :=
  concatenate_apply_piece (t := ⟨2, ![N, 4]⟩) (1 : Fin 2)
    [⟨⟨2, ![N, 1]⟩, y0⟩, ⟨⟨2, ![N, 1]⟩, y1⟩, ⟨⟨2, ![N, 1]⟩, y2⟩, ⟨⟨2, ![N, 1]⟩, y3⟩] h (ix2 r (2 : Fin 4))
    2 (by show 2 < 4; decide) ⟨2, ![N, 1]⟩ y2 rfl rfl 2 rfl (ix2 r (0 : Fin 1))
    (fun b hb => by match b with | ⟨0, _⟩ => rfl | ⟨1, _⟩ => exact absurd rfl hb) rfl

theorem concat4_at3 {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (r : Fin N) :
    concatenate (⟨2, ![N, 4]⟩ : Shape) 1 [⟨⟨2, ![N, 1]⟩, y0⟩, ⟨⟨2, ![N, 1]⟩, y1⟩, ⟨⟨2, ![N, 1]⟩, y2⟩, ⟨⟨2, ![N, 1]⟩, y3⟩] h
      (ix2 r (3 : Fin 4)) = y3 (ix2 r (0 : Fin 1)) :=
  concatenate_apply_piece (t := ⟨2, ![N, 4]⟩) (1 : Fin 2)
    [⟨⟨2, ![N, 1]⟩, y0⟩, ⟨⟨2, ![N, 1]⟩, y1⟩, ⟨⟨2, ![N, 1]⟩, y2⟩, ⟨⟨2, ![N, 1]⟩, y3⟩] h (ix2 r (3 : Fin 4))
    3 (by show 3 < 4; decide) ⟨2, ![N, 1]⟩ y3 rfl rfl 3 rfl (ix2 r (0 : Fin 1))
    (fun b hb => by match b with | ⟨0, _⟩ => rfl | ⟨1, _⟩ => exact absurd rfl hb) rfl

/-! The four coordinate columns of the query boxes, as vectors over the rows. -/

theorem v31_at (x1 : (⟨S16x900x4, .f32⟩ : BufTy).Contents (Elt Ideal)) (r : Fin 14400) :
    val_main_v31 (F := Ideal) x1 (ix1 r) = val_main_v12 (F := Ideal) x1 (ix2 r (0 : Fin 4)) := by
  rw [val_main_v31_apply, val_main_v30_apply]
  exact congrArg _ (funext fun a => Fin.ext (by match a with | ⟨0, _⟩ => exact Nat.div_one _ | ⟨1, _⟩ => rfl))

theorem v33_at (x1 : (⟨S16x900x4, .f32⟩ : BufTy).Contents (Elt Ideal)) (r : Fin 14400) :
    val_main_v33 (F := Ideal) x1 (ix1 r) = val_main_v12 (F := Ideal) x1 (ix2 r (1 : Fin 4)) := by
  rw [val_main_v33_apply, val_main_v32_apply]
  exact congrArg _ (funext fun a => Fin.ext (by match a with | ⟨0, _⟩ => exact Nat.div_one _ | ⟨1, _⟩ => rfl))

theorem v35_at (x1 : (⟨S16x900x4, .f32⟩ : BufTy).Contents (Elt Ideal)) (r : Fin 14400) :
    val_main_v35 (F := Ideal) x1 (ix1 r) = val_main_v12 (F := Ideal) x1 (ix2 r (2 : Fin 4)) := by
  rw [val_main_v35_apply, val_main_v34_apply]
  exact congrArg _ (funext fun a => Fin.ext (by match a with | ⟨0, _⟩ => exact Nat.div_one _ | ⟨1, _⟩ => rfl))

theorem v37_at (x1 : (⟨S16x900x4, .f32⟩ : BufTy).Contents (Elt Ideal)) (r : Fin 14400) :
    val_main_v37 (F := Ideal) x1 (ix1 r) = val_main_v12 (F := Ideal) x1 (ix2 r (3 : Fin 4)) := by
  rw [val_main_v37_apply, val_main_v36_apply]
  exact congrArg _ (funext fun a => Fin.ext (by match a with | ⟨0, _⟩ => exact Nat.div_one _ | ⟨1, _⟩ => rfl))

/-! The corners of the query boxes: centre ∓ half the extent. -/

theorem v40_at (x1 : (⟨S16x900x4, .f32⟩ : BufTy).Contents (Elt Ideal)) (r : Fin 14400) :
    val_main_v40 (F := Ideal) x1 (ix1 r)
      = lo (boxOf (val_main_v12 (F := Ideal) x1) r 0) (boxOf (val_main_v12 (F := Ideal) x1) r 2) := by
  rw [val_main_v40_apply, val_main_v39_apply, val_main_v38_apply, val_main_cst_4_apply, v31_at, v35_at]
  rfl

theorem v43_at (x1 : (⟨S16x900x4, .f32⟩ : BufTy).Contents (Elt Ideal)) (r : Fin 14400) :
    val_main_v43 (F := Ideal) x1 (ix1 r)
      = lo (boxOf (val_main_v12 (F := Ideal) x1) r 1) (boxOf (val_main_v12 (F := Ideal) x1) r 3) := by
  rw [val_main_v43_apply, val_main_v42_apply, val_main_v41_apply, val_main_cst_5_apply, v33_at, v37_at]
  rfl

theorem v46_at (x1 : (⟨S16x900x4, .f32⟩ : BufTy).Contents (Elt Ideal)) (r : Fin 14400) :
    val_main_v46 (F := Ideal) x1 (ix1 r)
      = hi (boxOf (val_main_v12 (F := Ideal) x1) r 0) (boxOf (val_main_v12 (F := Ideal) x1) r 2) := by
  rw [val_main_v46_apply, val_main_v45_apply, val_main_v44_apply, val_main_cst_6_apply, v31_at, v35_at]
  rfl

theorem v49_at (x1 : (⟨S16x900x4, .f32⟩ : BufTy).Contents (Elt Ideal)) (r : Fin 14400) :
    val_main_v49 (F := Ideal) x1 (ix1 r)
      = hi (boxOf (val_main_v12 (F := Ideal) x1) r 1) (boxOf (val_main_v12 (F := Ideal) x1) r 3) := by
  rw [val_main_v49_apply, val_main_v48_apply, val_main_v47_apply, val_main_cst_7_apply, v33_at, v37_at]
  rfl

/-! The query boxes in corner form (x₀, y₀, x₁, y₁), column by column. -/

theorem v54_at0 (x1 : (⟨S16x900x4, .f32⟩ : BufTy).Contents (Elt Ideal)) (r : Fin 14400) :
    val_main_v54 (F := Ideal) x1 (ix2 r (0 : Fin 4))
      = lo (boxOf (val_main_v12 (F := Ideal) x1) r 0) (boxOf (val_main_v12 (F := Ideal) x1) r 2) := by
  unfold val_main_v54
  rw [concat4_at0, val_main_v50_apply]
  exact v40_at x1 r

theorem v54_at1 (x1 : (⟨S16x900x4, .f32⟩ : BufTy).Contents (Elt Ideal)) (r : Fin 14400) :
    val_main_v54 (F := Ideal) x1 (ix2 r (1 : Fin 4))
      = lo (boxOf (val_main_v12 (F := Ideal) x1) r 1) (boxOf (val_main_v12 (F := Ideal) x1) r 3) := by
  unfold val_main_v54
  rw [concat4_at1, val_main_v51_apply]
  exact v43_at x1 r

theorem v54_at2 (x1 : (⟨S16x900x4, .f32⟩ : BufTy).Contents (Elt Ideal)) (r : Fin 14400) :
    val_main_v54 (F := Ideal) x1 (ix2 r (2 : Fin 4))
      = hi (boxOf (val_main_v12 (F := Ideal) x1) r 0) (boxOf (val_main_v12 (F := Ideal) x1) r 2) := by
  unfold val_main_v54
  rw [concat4_at2, val_main_v52_apply]
  exact v46_at x1 r

theorem v54_at3 (x1 : (⟨S16x900x4, .f32⟩ : BufTy).Contents (Elt Ideal)) (r : Fin 14400) :
    val_main_v54 (F := Ideal) x1 (ix2 r (3 : Fin 4))
      = hi (boxOf (val_main_v12 (F := Ideal) x1) r 1) (boxOf (val_main_v12 (F := Ideal) x1) r 3) := by
  unfold val_main_v54
  rw [concat4_at3, val_main_v53_apply]
  exact v49_at x1 r

/-! The same for the target boxes: the four coordinate columns, the corners, the corner form. -/

theorem v56_at (x3 : (⟨S16x100x4, .f32⟩ : BufTy).Contents (Elt Ideal)) (j : Fin 1600) :
    val_main_v56 (F := Ideal) x3 (ix1 j) = val_main_v14 (F := Ideal) x3 (ix2 j (0 : Fin 4)) := by
  rw [val_main_v56_apply, val_main_v55_apply]
  exact congrArg _ (funext fun a => Fin.ext (by match a with | ⟨0, _⟩ => exact Nat.div_one _ | ⟨1, _⟩ => rfl))

theorem v58_at (x3 : (⟨S16x100x4, .f32⟩ : BufTy).Contents (Elt Ideal)) (j : Fin 1600) :
    val_main_v58 (F := Ideal) x3 (ix1 j) = val_main_v14 (F := Ideal) x3 (ix2 j (1 : Fin 4)) := by
  rw [val_main_v58_apply, val_main_v57_apply]
  exact congrArg _ (funext fun a => Fin.ext (by match a with | ⟨0, _⟩ => exact Nat.div_one _ | ⟨1, _⟩ => rfl))

theorem v60_at (x3 : (⟨S16x100x4, .f32⟩ : BufTy).Contents (Elt Ideal)) (j : Fin 1600) :
    val_main_v60 (F := Ideal) x3 (ix1 j) = val_main_v14 (F := Ideal) x3 (ix2 j (2 : Fin 4)) := by
  rw [val_main_v60_apply, val_main_v59_apply]
  exact congrArg _ (funext fun a => Fin.ext (by match a with | ⟨0, _⟩ => exact Nat.div_one _ | ⟨1, _⟩ => rfl))

theorem v62_at (x3 : (⟨S16x100x4, .f32⟩ : BufTy).Contents (Elt Ideal)) (j : Fin 1600) :
    val_main_v62 (F := Ideal) x3 (ix1 j) = val_main_v14 (F := Ideal) x3 (ix2 j (3 : Fin 4)) := by
  rw [val_main_v62_apply, val_main_v61_apply]
  exact congrArg _ (funext fun a => Fin.ext (by match a with | ⟨0, _⟩ => exact Nat.div_one _ | ⟨1, _⟩ => rfl))

theorem v65_at (x3 : (⟨S16x100x4, .f32⟩ : BufTy).Contents (Elt Ideal)) (j : Fin 1600) :
    val_main_v65 (F := Ideal) x3 (ix1 j) = lo (tboxOf (val_main_v14 (F := Ideal) x3) j 0) (tboxOf (val_main_v14 (F := Ideal) x3) j 2) := by
  rw [val_main_v65_apply, val_main_v64_apply, val_main_v63_apply, val_main_cst_8_apply, v56_at, v60_at]
  rfl

theorem v68_at (x3 : (⟨S16x100x4, .f32⟩ : BufTy).Contents (Elt Ideal)) (j : Fin 1600) :
    val_main_v68 (F := Ideal) x3 (ix1 j) = lo (tboxOf (val_main_v14 (F := Ideal) x3) j 1) (tboxOf (val_main_v14 (F := Ideal) x3) j 3) := by
  rw [val_main_v68_apply, val_main_v67_apply, val_main_v66_apply, val_main_cst_9_apply, v58_at, v62_at]
  rfl

theorem v71_at (x3 : (⟨S16x100x4, .f32⟩ : BufTy).Contents (Elt Ideal)) (j : Fin 1600) :
    val_main_v71 (F := Ideal) x3 (ix1 j) = hi (tboxOf (val_main_v14 (F := Ideal) x3) j 0) (tboxOf (val_main_v14 (F := Ideal) x3) j 2) := by
  rw [val_main_v71_apply, val_main_v70_apply, val_main_v69_apply, val_main_cst_10_apply, v56_at, v60_at]
  rfl

theorem v74_at (x3 : (⟨S16x100x4, .f32⟩ : BufTy).Contents (Elt Ideal)) (j : Fin 1600) :
    val_main_v74 (F := Ideal) x3 (ix1 j) = hi (tboxOf (val_main_v14 (F := Ideal) x3) j 1) (tboxOf (val_main_v14 (F := Ideal) x3) j 3) := by
  rw [val_main_v74_apply, val_main_v73_apply, val_main_v72_apply, val_main_cst_11_apply, v58_at, v62_at]
  rfl

theorem v79_at0 (x3 : (⟨S16x100x4, .f32⟩ : BufTy).Contents (Elt Ideal)) (j : Fin 1600) :
    val_main_v79 (F := Ideal) x3 (ix2 j (0 : Fin 4)) = lo (tboxOf (val_main_v14 (F := Ideal) x3) j 0) (tboxOf (val_main_v14 (F := Ideal) x3) j 2) := by
  unfold val_main_v79
  rw [concat4_at0, val_main_v75_apply]
  exact v65_at x3 j

theorem v79_at1 (x3 : (⟨S16x100x4, .f32⟩ : BufTy).Contents (Elt Ideal)) (j : Fin 1600) :
    val_main_v79 (F := Ideal) x3 (ix2 j (1 : Fin 4)) = lo (tboxOf (val_main_v14 (F := Ideal) x3) j 1) (tboxOf (val_main_v14 (F := Ideal) x3) j 3) := by
  unfold val_main_v79
  rw [concat4_at1, val_main_v76_apply]
  exact v68_at x3 j

theorem v79_at2 (x3 : (⟨S16x100x4, .f32⟩ : BufTy).Contents (Elt Ideal)) (j : Fin 1600) :
    val_main_v79 (F := Ideal) x3 (ix2 j (2 : Fin 4)) = hi (tboxOf (val_main_v14 (F := Ideal) x3) j 0) (tboxOf (val_main_v14 (F := Ideal) x3) j 2) := by
  unfold val_main_v79
  rw [concat4_at2, val_main_v77_apply]
  exact v71_at x3 j

theorem v79_at3 (x3 : (⟨S16x100x4, .f32⟩ : BufTy).Contents (Elt Ideal)) (j : Fin 1600) :
    val_main_v79 (F := Ideal) x3 (ix2 j (3 : Fin 4)) = hi (tboxOf (val_main_v14 (F := Ideal) x3) j 1) (tboxOf (val_main_v14 (F := Ideal) x3) j 3) := by
  unfold val_main_v79
  rw [concat4_at3, val_main_v78_apply]
  exact v74_at x3 j

/-! The areas of the boxes from their corner form. -/

theorem v90_at (x1 : (⟨S16x900x4, .f32⟩ : BufTy).Contents (Elt Ideal)) (r : Fin 14400) :
    val_main_v90 (F := Ideal) x1 (ix1 r) = area (boxOf (val_main_v12 (F := Ideal) x1) r) := by
  rw [val_main_v90_apply, val_main_v84_apply, val_main_v89_apply, val_main_v81_apply, val_main_v80_apply,
    val_main_v83_apply, val_main_v82_apply, val_main_v86_apply, val_main_v85_apply, val_main_v88_apply, val_main_v87_apply]
  have e2 : idx_main_v80 (idx_main_v81 (ix1 r)) = ix2 r (2 : Fin 4) := by
    funext a; apply Fin.ext; match a with | ⟨0, _⟩ => exact Nat.div_one _ | ⟨1, _⟩ => rfl
  have e0 : idx_main_v82 (idx_main_v83 (ix1 r)) = ix2 r (0 : Fin 4) := by
    funext a; apply Fin.ext; match a with | ⟨0, _⟩ => exact Nat.div_one _ | ⟨1, _⟩ => rfl
  have e3 : idx_main_v85 (idx_main_v86 (ix1 r)) = ix2 r (3 : Fin 4) := by
    funext a; apply Fin.ext; match a with | ⟨0, _⟩ => exact Nat.div_one _ | ⟨1, _⟩ => rfl
  have e1 : idx_main_v87 (idx_main_v88 (ix1 r)) = ix2 r (1 : Fin 4) := by
    funext a; apply Fin.ext; match a with | ⟨0, _⟩ => exact Nat.div_one _ | ⟨1, _⟩ => rfl
  rw [e2, e0, e3, e1, v54_at2, v54_at0, v54_at3, v54_at1]
  rfl

theorem v101_at (x3 : (⟨S16x100x4, .f32⟩ : BufTy).Contents (Elt Ideal)) (j : Fin 1600) :
    val_main_v101 (F := Ideal) x3 (ix1 j) = area (tboxOf (val_main_v14 (F := Ideal) x3) j) := by
  rw [val_main_v101_apply, val_main_v95_apply, val_main_v100_apply, val_main_v92_apply, val_main_v91_apply,
    val_main_v94_apply, val_main_v93_apply, val_main_v97_apply, val_main_v96_apply, val_main_v99_apply, val_main_v98_apply]
  have e2 : idx_main_v91 (idx_main_v92 (ix1 j)) = ix2 j (2 : Fin 4) := by
    funext a; apply Fin.ext; match a with | ⟨0, _⟩ => exact Nat.div_one _ | ⟨1, _⟩ => rfl
  have e0 : idx_main_v93 (idx_main_v94 (ix1 j)) = ix2 j (0 : Fin 4) := by
    funext a; apply Fin.ext; match a with | ⟨0, _⟩ => exact Nat.div_one _ | ⟨1, _⟩ => rfl
  have e3 : idx_main_v96 (idx_main_v97 (ix1 j)) = ix2 j (3 : Fin 4) := by
    funext a; apply Fin.ext; match a with | ⟨0, _⟩ => exact Nat.div_one _ | ⟨1, _⟩ => rfl
  have e1 : idx_main_v98 (idx_main_v99 (ix1 j)) = ix2 j (1 : Fin 4) := by
    funext a; apply Fin.ext; match a with | ⟨0, _⟩ => exact Nat.div_one _ | ⟨1, _⟩ => rfl
  rw [e2, e0, e3, e1, v79_at2, v79_at0, v79_at3, v79_at1]
  rfl

/-! The clipped overlap lengths and enclosing lengths on the two axes (the clip is a maximum with the word 0 on the
    left; max commutes). -/

theorem v117_at0 (x1 : (⟨S16x900x4, .f32⟩ : BufTy).Contents (Elt Ideal)) (x3 : (⟨S16x100x4, .f32⟩ : BufTy).Contents (Elt Ideal)) (r : Fin 14400) (j : Fin 1600) :
    val_main_v117 (F := Ideal) x1 x3 (ix3 r j (0 : Fin 2)) = overlap (boxOf (val_main_v12 (F := Ideal) x1) r 0) (boxOf (val_main_v12 (F := Ideal) x1) r 2) (tboxOf (val_main_v14 (F := Ideal) x3) j 0) (tboxOf (val_main_v14 (F := Ideal) x3) j 2) := by
  rw [val_main_v117_apply, val_main_call0_v1_apply, val_main_call0_v0_apply, val_main_cst_12_apply, val_main_v116_apply,
    val_main_v115_apply, val_main_v113_apply, val_main_v110_apply, val_main_v109_apply,
    val_main_v114_apply, val_main_v112_apply, val_main_v111_apply,
    val_main_v108_apply, val_main_v106_apply, val_main_v103_apply, val_main_v102_apply,
    val_main_v107_apply, val_main_v105_apply, val_main_v104_apply]
  have e1 : idx_main_v109 (idx_main_v110 (idx_main_v113 (ix3 r j (0 : Fin 2)))) = ix2 r (2 : Fin 4) := by
    funext a; apply Fin.ext; match a with | ⟨0, _⟩ => rfl | ⟨1, _⟩ => rfl
  have e2 : idx_main_v111 (idx_main_v112 (idx_main_v114 (ix3 r j (0 : Fin 2)))) = ix2 j (2 : Fin 4) := by
    funext a; apply Fin.ext; match a with | ⟨0, _⟩ => rfl | ⟨1, _⟩ => rfl
  have e3 : idx_main_v102 (idx_main_v103 (idx_main_v106 (ix3 r j (0 : Fin 2)))) = ix2 r (0 : Fin 4) := by
    funext a; apply Fin.ext; match a with | ⟨0, _⟩ => rfl | ⟨1, _⟩ => rfl
  have e4 : idx_main_v104 (idx_main_v105 (idx_main_v107 (ix3 r j (0 : Fin 2)))) = ix2 j (0 : Fin 4) := by
    funext a; apply Fin.ext; match a with | ⟨0, _⟩ => rfl | ⟨1, _⟩ => rfl
  rw [e1, e2, e3, e4, v54_at2, v79_at2, v54_at0, v79_at0]
  exact max_comm _ _

theorem v117_at1 (x1 : (⟨S16x900x4, .f32⟩ : BufTy).Contents (Elt Ideal)) (x3 : (⟨S16x100x4, .f32⟩ : BufTy).Contents (Elt Ideal)) (r : Fin 14400) (j : Fin 1600) :
    val_main_v117 (F := Ideal) x1 x3 (ix3 r j (1 : Fin 2)) = overlap (boxOf (val_main_v12 (F := Ideal) x1) r 1) (boxOf (val_main_v12 (F := Ideal) x1) r 3) (tboxOf (val_main_v14 (F := Ideal) x3) j 1) (tboxOf (val_main_v14 (F := Ideal) x3) j 3) := by
  rw [val_main_v117_apply, val_main_call0_v1_apply, val_main_call0_v0_apply, val_main_cst_12_apply, val_main_v116_apply,
    val_main_v115_apply, val_main_v113_apply, val_main_v110_apply, val_main_v109_apply,
    val_main_v114_apply, val_main_v112_apply, val_main_v111_apply,
    val_main_v108_apply, val_main_v106_apply, val_main_v103_apply, val_main_v102_apply,
    val_main_v107_apply, val_main_v105_apply, val_main_v104_apply]
  have e1 : idx_main_v109 (idx_main_v110 (idx_main_v113 (ix3 r j (1 : Fin 2)))) = ix2 r (3 : Fin 4) := by
    funext a; apply Fin.ext; match a with | ⟨0, _⟩ => rfl | ⟨1, _⟩ => rfl
  have e2 : idx_main_v111 (idx_main_v112 (idx_main_v114 (ix3 r j (1 : Fin 2)))) = ix2 j (3 : Fin 4) := by
    funext a; apply Fin.ext; match a with | ⟨0, _⟩ => rfl | ⟨1, _⟩ => rfl
  have e3 : idx_main_v102 (idx_main_v103 (idx_main_v106 (ix3 r j (1 : Fin 2)))) = ix2 r (1 : Fin 4) := by
    funext a; apply Fin.ext; match a with | ⟨0, _⟩ => rfl | ⟨1, _⟩ => rfl
  have e4 : idx_main_v104 (idx_main_v105 (idx_main_v107 (ix3 r j (1 : Fin 2)))) = ix2 j (1 : Fin 4) := by
    funext a; apply Fin.ext; match a with | ⟨0, _⟩ => rfl | ⟨1, _⟩ => rfl
  rw [e1, e2, e3, e4, v54_at3, v79_at3, v54_at1, v79_at1]
  exact max_comm _ _

theorem v145_at0 (x1 : (⟨S16x900x4, .f32⟩ : BufTy).Contents (Elt Ideal)) (x3 : (⟨S16x100x4, .f32⟩ : BufTy).Contents (Elt Ideal)) (r : Fin 14400) (j : Fin 1600) :
    val_main_v145 (F := Ideal) x1 x3 (ix3 r j (0 : Fin 2)) = span (boxOf (val_main_v12 (F := Ideal) x1) r 0) (boxOf (val_main_v12 (F := Ideal) x1) r 2) (tboxOf (val_main_v14 (F := Ideal) x3) j 0) (tboxOf (val_main_v14 (F := Ideal) x3) j 2) := by
  rw [val_main_v145_apply, val_main_call1_v1_apply, val_main_call1_v0_apply, val_main_cst_13_apply, val_main_v144_apply,
    val_main_v143_apply, val_main_v141_apply, val_main_v138_apply, val_main_v137_apply,
    val_main_v142_apply, val_main_v140_apply, val_main_v139_apply,
    val_main_v136_apply, val_main_v134_apply, val_main_v131_apply, val_main_v130_apply,
    val_main_v135_apply, val_main_v133_apply, val_main_v132_apply]
  have e1 : idx_main_v137 (idx_main_v138 (idx_main_v141 (ix3 r j (0 : Fin 2)))) = ix2 r (2 : Fin 4) := by
    funext a; apply Fin.ext; match a with | ⟨0, _⟩ => rfl | ⟨1, _⟩ => rfl
  have e2 : idx_main_v139 (idx_main_v140 (idx_main_v142 (ix3 r j (0 : Fin 2)))) = ix2 j (2 : Fin 4) := by
    funext a; apply Fin.ext; match a with | ⟨0, _⟩ => rfl | ⟨1, _⟩ => rfl
  have e3 : idx_main_v130 (idx_main_v131 (idx_main_v134 (ix3 r j (0 : Fin 2)))) = ix2 r (0 : Fin 4) := by
    funext a; apply Fin.ext; match a with | ⟨0, _⟩ => rfl | ⟨1, _⟩ => rfl
  have e4 : idx_main_v132 (idx_main_v133 (idx_main_v135 (ix3 r j (0 : Fin 2)))) = ix2 j (0 : Fin 4) := by
    funext a; apply Fin.ext; match a with | ⟨0, _⟩ => rfl | ⟨1, _⟩ => rfl
  rw [e1, e2, e3, e4, v54_at2, v79_at2, v54_at0, v79_at0]
  exact max_comm _ _

theorem v145_at1 (x1 : (⟨S16x900x4, .f32⟩ : BufTy).Contents (Elt Ideal)) (x3 : (⟨S16x100x4, .f32⟩ : BufTy).Contents (Elt Ideal)) (r : Fin 14400) (j : Fin 1600) :
    val_main_v145 (F := Ideal) x1 x3 (ix3 r j (1 : Fin 2)) = span (boxOf (val_main_v12 (F := Ideal) x1) r 1) (boxOf (val_main_v12 (F := Ideal) x1) r 3) (tboxOf (val_main_v14 (F := Ideal) x3) j 1) (tboxOf (val_main_v14 (F := Ideal) x3) j 3) := by
  rw [val_main_v145_apply, val_main_call1_v1_apply, val_main_call1_v0_apply, val_main_cst_13_apply, val_main_v144_apply,
    val_main_v143_apply, val_main_v141_apply, val_main_v138_apply, val_main_v137_apply,
    val_main_v142_apply, val_main_v140_apply, val_main_v139_apply,
    val_main_v136_apply, val_main_v134_apply, val_main_v131_apply, val_main_v130_apply,
    val_main_v135_apply, val_main_v133_apply, val_main_v132_apply]
  have e1 : idx_main_v137 (idx_main_v138 (idx_main_v141 (ix3 r j (1 : Fin 2)))) = ix2 r (3 : Fin 4) := by
    funext a; apply Fin.ext; match a with | ⟨0, _⟩ => rfl | ⟨1, _⟩ => rfl
  have e2 : idx_main_v139 (idx_main_v140 (idx_main_v142 (ix3 r j (1 : Fin 2)))) = ix2 j (3 : Fin 4) := by
    funext a; apply Fin.ext; match a with | ⟨0, _⟩ => rfl | ⟨1, _⟩ => rfl
  have e3 : idx_main_v130 (idx_main_v131 (idx_main_v134 (ix3 r j (1 : Fin 2)))) = ix2 r (1 : Fin 4) := by
    funext a; apply Fin.ext; match a with | ⟨0, _⟩ => rfl | ⟨1, _⟩ => rfl
  have e4 : idx_main_v132 (idx_main_v133 (idx_main_v135 (ix3 r j (1 : Fin 2)))) = ix2 j (1 : Fin 4) := by
    funext a; apply Fin.ext; match a with | ⟨0, _⟩ => rfl | ⟨1, _⟩ => rfl
  rw [e1, e2, e3, e4, v54_at3, v79_at3, v54_at1, v79_at1]
  exact max_comm _ _

/-! The two planes of a [rows, columns, 2] array as matrices. -/

theorem v119_eq (x1 : (⟨S16x900x4, .f32⟩ : BufTy).Contents (Elt Ideal)) (x3 : (⟨S16x100x4, .f32⟩ : BufTy).Contents (Elt Ideal)) (r : Fin 14400) (j : Fin 1600) :
    val_main_v119 (F := Ideal) x1 x3 (ix2 r j) = val_main_v117 (F := Ideal) x1 x3 (ix3 r j (0 : Fin 2)) := by
  rw [val_main_v119_apply, val_main_v118_apply]
  refine congrArg _ (funext fun a => Fin.ext ?_)
  have hr := r.isLt
  have hj := j.isLt
  match a with
  | ⟨0, _⟩ => show (r.val * 1600 + j.val) / 1600 = r.val; omega
  | ⟨1, _⟩ => show (r.val * 1600 + j.val) / 1 % 1600 = j.val; omega
  | ⟨2, _⟩ => rfl

theorem v121_eq (x1 : (⟨S16x900x4, .f32⟩ : BufTy).Contents (Elt Ideal)) (x3 : (⟨S16x100x4, .f32⟩ : BufTy).Contents (Elt Ideal)) (r : Fin 14400) (j : Fin 1600) :
    val_main_v121 (F := Ideal) x1 x3 (ix2 r j) = val_main_v117 (F := Ideal) x1 x3 (ix3 r j (1 : Fin 2)) := by
  rw [val_main_v121_apply, val_main_v120_apply]
  refine congrArg _ (funext fun a => Fin.ext ?_)
  have hr := r.isLt
  have hj := j.isLt
  match a with
  | ⟨0, _⟩ => show (r.val * 1600 + j.val) / 1600 = r.val; omega
  | ⟨1, _⟩ => show (r.val * 1600 + j.val) / 1 % 1600 = j.val; omega
  | ⟨2, _⟩ => rfl

theorem v147_eq (x1 : (⟨S16x900x4, .f32⟩ : BufTy).Contents (Elt Ideal)) (x3 : (⟨S16x100x4, .f32⟩ : BufTy).Contents (Elt Ideal)) (r : Fin 14400) (j : Fin 1600) :
    val_main_v147 (F := Ideal) x1 x3 (ix2 r j) = val_main_v145 (F := Ideal) x1 x3 (ix3 r j (0 : Fin 2)) := by
  rw [val_main_v147_apply, val_main_v146_apply]
  refine congrArg _ (funext fun a => Fin.ext ?_)
  have hr := r.isLt
  have hj := j.isLt
  match a with
  | ⟨0, _⟩ => show (r.val * 1600 + j.val) / 1600 = r.val; omega
  | ⟨1, _⟩ => show (r.val * 1600 + j.val) / 1 % 1600 = j.val; omega
  | ⟨2, _⟩ => rfl

theorem v149_eq (x1 : (⟨S16x900x4, .f32⟩ : BufTy).Contents (Elt Ideal)) (x3 : (⟨S16x100x4, .f32⟩ : BufTy).Contents (Elt Ideal)) (r : Fin 14400) (j : Fin 1600) :
    val_main_v149 (F := Ideal) x1 x3 (ix2 r j) = val_main_v145 (F := Ideal) x1 x3 (ix3 r j (1 : Fin 2)) := by
  rw [val_main_v149_apply, val_main_v148_apply]
  refine congrArg _ (funext fun a => Fin.ext ?_)
  have hr := r.isLt
  have hj := j.isLt
  match a with
  | ⟨0, _⟩ => show (r.val * 1600 + j.val) / 1600 = r.val; omega
  | ⟨1, _⟩ => show (r.val * 1600 + j.val) / 1 % 1600 = j.val; omega
  | ⟨2, _⟩ => rfl

/-- The intersection area. -/
theorem v122_at (x1 : (⟨S16x900x4, .f32⟩ : BufTy).Contents (Elt Ideal)) (x3 : (⟨S16x100x4, .f32⟩ : BufTy).Contents (Elt Ideal)) (r : Fin 14400) (j : Fin 1600) :
    val_main_v122 (F := Ideal) x1 x3 (ix2 r j) = inter (boxOf (val_main_v12 (F := Ideal) x1) r) (tboxOf (val_main_v14 (F := Ideal) x3) j) := by
  rw [val_main_v122_apply, v119_eq, v121_eq, v117_at0, v117_at1]
  rfl

/-- The union area: the two areas less the intersection. -/
theorem v128_at (x1 : (⟨S16x900x4, .f32⟩ : BufTy).Contents (Elt Ideal)) (x3 : (⟨S16x100x4, .f32⟩ : BufTy).Contents (Elt Ideal)) (r : Fin 14400) (j : Fin 1600) :
    val_main_v128 (F := Ideal) x1 x3 (ix2 r j) = union (boxOf (val_main_v12 (F := Ideal) x1) r) (tboxOf (val_main_v14 (F := Ideal) x3) j) := by
  rw [val_main_v128_apply, val_main_v127_apply, val_main_v125_apply, val_main_v123_apply, val_main_v126_apply,
    val_main_v124_apply, v122_at]
  have e1 : idx_main_v123 (idx_main_v125 (ix2 r j)) = ix1 r := by
    funext a; apply Fin.ext; match a with | ⟨0, _⟩ => rfl
  have e2 : idx_main_v124 (idx_main_v126 (ix2 r j)) = ix1 j := by
    funext a; apply Fin.ext; match a with | ⟨0, _⟩ => rfl
  rw [e1, e2, v90_at, v101_at]
  rfl

/-- The enclosing box's area. -/
theorem v150_at (x1 : (⟨S16x900x4, .f32⟩ : BufTy).Contents (Elt Ideal)) (x3 : (⟨S16x100x4, .f32⟩ : BufTy).Contents (Elt Ideal)) (r : Fin 14400) (j : Fin 1600) :
    val_main_v150 (F := Ideal) x1 x3 (ix2 r j) = hull (boxOf (val_main_v12 (F := Ideal) x1) r) (tboxOf (val_main_v14 (F := Ideal) x3) j) := by
  rw [val_main_v150_apply, v147_eq, v149_eq, v145_at0, v145_at1]
  rfl

/-- The generalized IoU stage. -/
theorem v153_at (x1 : (⟨S16x900x4, .f32⟩ : BufTy).Contents (Elt Ideal)) (x3 : (⟨S16x100x4, .f32⟩ : BufTy).Contents (Elt Ideal)) (r : Fin 14400) (j : Fin 1600) :
    val_main_v153 (F := Ideal) x1 x3 (ix2 r j) = giou (boxOf (val_main_v12 (F := Ideal) x1) r) (tboxOf (val_main_v14 (F := Ideal) x3) j) := by
  rw [val_main_v153_apply, val_main_v129_apply, val_main_v152_apply, val_main_v151_apply, v122_at, v128_at, v150_at]
  rfl

/-- The reference's cost matrix before its last reshape is the specification's cost of the flattened arguments, for any
    label table the flattened label words spell. -/
theorem ref_cost (x0 : (⟨S16x900x151, .f32⟩ : BufTy).Contents (Elt Ideal)) (x1 : (⟨S16x900x4, .f32⟩ : BufTy).Contents (Elt Ideal))
    (x2 : (⟨S16x100, .i32⟩ : BufTy).Contents (Elt Ideal)) (x3 : (⟨S16x100x4, .f32⟩ : BufTy).Contents (Elt Ideal))
    (lbl : Fin 1600 → Fin 151)
    (hl : ∀ j : Fin 1600, val_main_v13 (F := Ideal) x2 (ix1 j) = BitVec.ofNat 32 (lbl j).val) :
    val_main_v162 (F := Ideal) x0 x1 x2 x3
      = Cert.MatchCost.cost (val_main_v0 (F := Ideal) x0) (val_main_v12 (F := Ideal) x1) lbl (val_main_v14 (F := Ideal) x3) := by
  funext i
  obtain ⟨r, j, rfl⟩ : ∃ (r : Fin 14400) (j : Fin 1600), i = ix2 r j := ⟨i 0, i 1, eq_ix2 i⟩
  rw [val_main_v162_apply, val_main_v159_apply, val_main_v156_apply, val_main_v155_apply, val_main_cst_14_apply,
    val_main_v158_apply, val_main_v157_apply, val_main_cst_15_apply, val_main_v161_apply, val_main_v160_apply,
    val_main_cst_16_apply, val_main_v154_apply, v29_at, v22_at x0 x2 lbl hl, v153_at]
  exact arrange _ _ _

end Cert.MatchCost.Ref

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KernelBody.lean ====
/-
  The kernel's body, read entry by entry on the extended reals. One grid step holds a block of 400 query rows: its
  logits x0 [400,151], its boxes x1 [400,4], all target boxes transposed x2 [4,1600] and the one-hot label table x3
  [151,1600]; it stores one [400,1600] block. At (p, q) that block holds

    −(Σ_k softmax(x0 row p)_k · x3[k,q]) + 5 · ‖x1 row p − x2 column q‖₁ − 2 · GIoU(x1 row p, x2 column q),

  the softmax taken with the row maximum subtracted. Proved here stage by stage: the row maximum and the row sum as a
  fold and a sum over the 151 classes, the columns and rows spread over the block, the matrix product against the
  table as a sum over the classes, the corner form of the boxes, the areas, and the final arrangement.
-/
import proofs.«429697_j25331717112271_2_alg».proof.Proof.Gen.KernelIdeal.Frame
import proofs.«429697_j25331717112271_2_alg».proof.Proof.Spec
import proofs.«429697_j25331717112271_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.MatchCost.Ker

open Cert.KernelIdeal Cert.KernelIdeal.Gen
open Idealize.ShloMosaic Idealize.ShloMosaic.ValueIdx Idealize.ShloMosaic.TcCoe

variable {α : Type}

/-- A column [a,1] broadcast to [a,b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a,1] reads, at (p, 0), the vector at p. -/
theorem col_of_vec {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by rw [Shape.rowMajor_val_one, Shape.rowMajor_val_two]; show p.val = p.val * 1 + 0; omega)

/-- Row p of a [400,151] block with the class coordinate k put back is the entry (p, k). -/
theorem lift_eq (p : Fin 400) (k : Fin 151) : reduces_S400x151_S400.lift (ix1 p) k = ix2 p k := by
  funext a
  apply Fin.ext
  match a with
  | ⟨0, _⟩ => rfl
  | ⟨1, _⟩ => rfl

/-- The largest entry of row p of a block of logits: the fold of max from the word −∞. -/
def blkMax (v0 : Vec Ideal S400x151 .f32) (p : Fin 400) : EReal :=
  (Finset.univ : Finset (Fin 151)).fold max negInf (fun k => v0 (ix2 p k))

theorem rowmax_apply (v0 : FVec Ideal S400x151 .f32) (hφ : FKind.Formats .f32) (hacc : (0xFF800000#32 : BitVec 32) = 0xFF800000#32) (p : Fin 400) :
    multiReduction (F := Ideal) .maximumf [1] S400 v0 0xFF800000#32 reduces_S400x151_S400 hφ hacc (ix1 p) = blkMax v0 p := by
  refine (Ideal.multiReduction_maximumf_single v0 0xFF800000#32 reduces_S400x151_S400 hφ hacc (ix1 p)).trans ?_
  unfold blkMax
  congr 1
  funext k
  exact congrArg v0 (lift_eq p k)

/-- The sum of row p of a block: the lane sum from the word 0. -/
theorem rowsum_apply (v : FVec Ideal S400x151 .f32) (hφ : FKind.Formats .f32) (hacc : (0x00000000#32 : BitVec 32) = 0x00000000#32) (p : Fin 400) :
    multiReduction (F := Ideal) .add [1] S400 v 0x00000000#32 reduces_S400x151_S400 hφ hacc (ix1 p) = ∑ k : Fin 151, v (ix2 p k) := by
  refine (Ideal.multiReduction_add_single v 0x00000000#32 reduces_S400x151_S400 hφ hacc (ix1 p)).trans ?_
  exact Finset.sum_congr rfl fun k _ => congrArg v (lift_eq p k)

/-- A load of column c of a [400,4] block reads, at (p, 0), the block at (p, c). -/
theorem ld_col (x : Vec Ideal S400x4 .f32) (c : Nat) (hc : c < 4) (inb : ∀ a, (![0, c] : Fin 2 → Nat) a + S400x1.size a ≤ S400x4.size a) (p : Fin 400) :
    View.ld x (Rect.unit (s := S400x4) ![0, c] S400x1.size inb) (ix2 p (0 : Fin 1)) = x (ix2 p ⟨c, hc⟩) := by
  show x _ = x _
  congr 1
  funext a
  apply Fin.ext
  match a with
  | ⟨0, _⟩ => show 0 + 1 * p.val = p.val; omega
  | ⟨1, _⟩ => show c + 1 * 0 = c; omega

/-- A load of row c of a [4,1600] block reads, at (0, q), the block at (c, q). -/
theorem ld_row (x : Vec Ideal S4x1600 .f32) (c : Nat) (hc : c < 4) (inb : ∀ a, (![c, 0] : Fin 2 → Nat) a + S1x1600.size a ≤ S4x1600.size a) (q : Fin 1600) :
    View.ld x (Rect.unit (s := S4x1600) ![c, 0] S1x1600.size inb) (ix2 (0 : Fin 1) q) = x (ix2 ⟨c, hc⟩ q) := by
  show x _ = x _
  congr 1
  funext a
  apply Fin.ext
  match a with
  | ⟨0, _⟩ => show c + 1 * 0 = c; omega
  | ⟨1, _⟩ => show 0 + 1 * q.val = q.val; omega

/-! ## The box corners and areas the body computes, entry by entry -/

section Corners
variable (c w : FVec Ideal S400x1 .f32) (p : Fin 400)

theorem pay14_apply : k0_pay14 c w (ix2 p (0 : Fin 1)) = lo (c (ix2 p 0)) (w (ix2 p 0)) := rfl
theorem pay15_apply : k0_pay15 c w (ix2 p (0 : Fin 1)) = lo (c (ix2 p 0)) (w (ix2 p 0)) := rfl
theorem pay16_apply : k0_pay16 c w (ix2 p (0 : Fin 1)) = hi (c (ix2 p 0)) (w (ix2 p 0)) := rfl
theorem pay17_apply : k0_pay17 c w (ix2 p (0 : Fin 1)) = hi (c (ix2 p 0)) (w (ix2 p 0)) := rfl
end Corners

section TCorners
variable (c w : FVec Ideal S1x1600 .f32) (q : Fin 1600)

theorem pay18_apply : k0_pay18 c w (ix2 (0 : Fin 1) q) = lo (c (ix2 0 q)) (w (ix2 0 q)) := rfl
theorem pay19_apply : k0_pay19 c w (ix2 (0 : Fin 1) q) = lo (c (ix2 0 q)) (w (ix2 0 q)) := rfl
theorem pay20_apply : k0_pay20 c w (ix2 (0 : Fin 1) q) = hi (c (ix2 0 q)) (w (ix2 0 q)) := rfl
theorem pay21_apply : k0_pay21 c w (ix2 (0 : Fin 1) q) = hi (c (ix2 0 q)) (w (ix2 0 q)) := rfl
end TCorners

theorem pay22_apply (cx cy w h : FVec Ideal S400x1 .f32) (p : Fin 400) :
    k0_pay22 cx cy w h (ix2 p (0 : Fin 1)) = area ![cx (ix2 p 0), cy (ix2 p 0), w (ix2 p 0), h (ix2 p 0)] := rfl

theorem pay23_apply (cx cy w h : FVec Ideal S1x1600 .f32) (q : Fin 1600) :
    k0_pay23 cx cy w h (ix2 (0 : Fin 1) q) = area ![cx (ix2 0 q), cy (ix2 0 q), w (ix2 0 q), h (ix2 0 q)] := rfl

/-! ## The softmax of a block of logits -/

/-- exp (logit − row maximum) in a block. -/
def blkExp (v0 : FVec Ideal S400x151 .f32) (p : Fin 400) (k : Fin 151) : EReal := Ideal.exp (v0 (ix2 p k) - blkMax v0 p)

/-- A block's softmax entry. -/
def blkProb (v0 : FVec Ideal S400x151 .f32) (p : Fin 400) (k : Fin 151) : EReal :=
  Ideal.div (blkExp v0 p k) (∑ k' : Fin 151, blkExp v0 p k')

/-- The body's exponentials, as a vector: the block minus its row maxima (kept as a column and spread), exponentiated. -/
def expVec (v0 : FVec Ideal S400x151 .f32) : FVec Ideal S400x151 .f32 :=
  exp (subf v0 (broadcastTo S400x151 (shapeCast S400x1
    (multiReduction (F := Ideal) .maximumf [1] S400 v0 0xFF800000#32 reduces_S400x151_S400 (.inl rfl) rfl) shapeCasts_S400_S400x1)
    broadcasts_S400x1_S400x151))

/-- The body's softmax, as a vector: the exponentials over their row sums (kept as a column and spread). -/
def probVec (v0 : FVec Ideal S400x151 .f32) : FVec Ideal S400x151 .f32 :=
  divf (expVec v0) (broadcastTo S400x151 (shapeCast S400x1
    (multiReduction (F := Ideal) .add [1] S400 (expVec v0) 0x00000000#32 reduces_S400x151_S400 (.inl rfl) rfl) shapeCasts_S400_S400x1)
    broadcasts_S400x1_S400x151)

theorem expVec_apply (v0 : FVec Ideal S400x151 .f32) (p : Fin 400) (k : Fin 151) : expVec v0 (ix2 p k) = blkExp v0 p k := by
  unfold expVec blkExp
  show Ideal.exp (v0 (ix2 p k) - broadcastTo S400x151 _ broadcasts_S400x1_S400x151 (ix2 p k)) = _
  rw [bcast_col, col_of_vec, rowmax_apply]

theorem probVec_apply (v0 : FVec Ideal S400x151 .f32) (p : Fin 400) (k : Fin 151) : probVec v0 (ix2 p k) = blkProb v0 p k := by
  unfold probVec blkProb
  show Ideal.div (expVec v0 (ix2 p k)) (broadcastTo S400x151 _ broadcasts_S400x1_S400x151 (ix2 p k)) = _
  rw [bcast_col, col_of_vec, rowsum_apply, expVec_apply]
  simp only [expVec_apply]

/-- The record of the body's matrix product is the plain one: rows by the contracted classes by columns. -/
theorem dot_plain : dot_S400x151_S151x1600_S400x1600_1_0_0_1_n_n = DotDims.plain 400 151 1600 := rfl

/-- THE CLASS TERM of the body at (p, q): minus the sum over the classes of the block's softmax entry times the
    one-hot table's entry. -/
theorem pay2_apply (v0 : FVec Ideal S400x151 .f32) (v12 : FVec Ideal S151x1600 .bf16) (p : Fin 400) (q : Fin 1600) :
    k0_pay2 (F := Ideal) v0 v12 (ix2 p q) = negOne * ∑ k : Fin 151, blkProb v0 p k * v12 (ix2 k q) := by
  have e : k0_pay2 (F := Ideal) v0 v12 = mulf (broadcast S400x1600 (negOne : Ideal .f32))
      (matmul (DotDims.plain 400 151 1600) none (truncf .bf16 (probVec (shapeCast S400x151 v0 shapeCasts_S400x151_S400x151)) bitsLt_bf16_f32)
        (shapeCast S151x1600 v12 shapeCasts_S151x1600_S151x1600) (constant S400x1600 .f32 0x00000000#32)) := rfl
  rw [e, shapeCast_self, shapeCast_self]
  refine congrArg (negOne * ·) ?_
  refine (Cert.LibPlainDot.matmul_plain_apply 400 151 1600 none _ _ p q).trans ?_
  refine Finset.sum_congr rfl fun k _ => ?_
  show probVec v0 (ix2 p k) * _ = _
  rw [probVec_apply]

/-! ## The box terms of the body at (p, q) -/

/-- The absolute value of a vector read at an entry. -/
theorem absf_at {s : Shape} (a : FVec Ideal s .f32) (i : s.Idx) : absf a i = absE (a i) := rfl

/-- The class term plus five times the four absolute coordinate differences, added in order. -/
theorem pay13_apply (v16 : FVec Ideal S400x1600 .f32) (v20 v22 v24 : FVec Ideal S400x1 .f32) (v28 v30 v32 : FVec Ideal S1x1600 .f32)
    (v33 v34 : FVec Ideal S400x1600 .f32) (p : Fin 400) (q : Fin 1600) :
    k0_pay13 (F := Ideal) v16 v20 v22 v24 v28 v30 v32 v33 v34 (ix2 p q)
      = v16 (ix2 p q) + five * (absE (v33 (ix2 p q) - v34 (ix2 p q)) + absE (v20 (ix2 p 0) - v28 (ix2 0 q))
          + absE (v22 (ix2 p 0) - v30 (ix2 0 q)) + absE (v24 (ix2 p 0) - v32 (ix2 0 q))) := by
  unfold k0_pay13
  simp only [addf_apply, mulf_apply, absf_at, subf_apply, broadcast_apply, bcast_col, broadcastTo_1b_ab_apply]
  rfl

/-- What the body stores at (p, q): the running sum minus twice the generalized IoU, from the corner columns and rows. -/
theorem pay1_apply (v54 : FVec Ideal S400x1600 .f32) (v57 v60 v63 v66 : FVec Ideal S400x1 .f32) (v69 v72 v75 v78 : FVec Ideal S1x1600 .f32)
    (v81 : FVec Ideal S400x1 .f32) (v84 : FVec Ideal S1x1600 .f32) (v85 : FVec Ideal S400x1600 .f32) (p : Fin 400) (q : Fin 1600) :
    k0_pay1 (F := Ideal) v54 v57 v60 v63 v66 v69 v72 v75 v78 v81 v84 v85 (ix2 p q)
      = v54 (ix2 p q) - two *
        (Ideal.div
            (max (min (v85 (ix2 p q)) (v75 (ix2 0 q)) - max (v57 (ix2 p 0)) (v69 (ix2 0 q))) zero
              * max (min (v66 (ix2 p 0)) (v78 (ix2 0 q)) - max (v60 (ix2 p 0)) (v72 (ix2 0 q))) zero)
            (v81 (ix2 p 0) + v84 (ix2 0 q)
              - max (min (v85 (ix2 p q)) (v75 (ix2 0 q)) - max (v57 (ix2 p 0)) (v69 (ix2 0 q))) zero
                * max (min (v66 (ix2 p 0)) (v78 (ix2 0 q)) - max (v60 (ix2 p 0)) (v72 (ix2 0 q))) zero)
          - Ideal.div
            (max (max (v63 (ix2 p 0)) (v75 (ix2 0 q)) - min (v57 (ix2 p 0)) (v69 (ix2 0 q))) zero
                * max (max (v66 (ix2 p 0)) (v78 (ix2 0 q)) - min (v60 (ix2 p 0)) (v72 (ix2 0 q))) zero
              - (v81 (ix2 p 0) + v84 (ix2 0 q)
                - max (min (v85 (ix2 p q)) (v75 (ix2 0 q)) - max (v57 (ix2 p 0)) (v69 (ix2 0 q))) zero
                  * max (min (v66 (ix2 p 0)) (v78 (ix2 0 q)) - max (v60 (ix2 p 0)) (v72 (ix2 0 q))) zero))
            (max (max (v63 (ix2 p 0)) (v75 (ix2 0 q)) - min (v57 (ix2 p 0)) (v69 (ix2 0 q))) zero
                * max (max (v66 (ix2 p 0)) (v78 (ix2 0 q)) - min (v60 (ix2 p 0)) (v72 (ix2 0 q))) zero)) := by
  unfold k0_pay1
  simp only [addf_apply, mulf_apply, subf_apply, divf_apply, maximumf_apply, minimumf_apply, broadcast_apply, bcast_col,
    broadcastTo_1b_ab_apply]
  rfl

/-! ## The identity casts, the spread columns and rows, and the loads of single columns and rows -/

theorem pay3_eq (v : FVec Ideal S400x1 .f32) : k0_pay3 (F := Ideal) v = v := shapeCast_self v _
theorem pay4_eq (v : FVec Ideal S400x1 .f32) : k0_pay4 (F := Ideal) v = v := shapeCast_self v _
theorem pay5_eq (v : FVec Ideal S400x1 .f32) : k0_pay5 (F := Ideal) v = v := shapeCast_self v _
theorem pay6_eq (v : FVec Ideal S400x1 .f32) : k0_pay6 (F := Ideal) v = v := shapeCast_self v _
theorem pay7_eq (v : FVec Ideal S1x1600 .f32) : k0_pay7 (F := Ideal) v = v := shapeCast_self v _
theorem pay8_eq (v : FVec Ideal S1x1600 .f32) : k0_pay8 (F := Ideal) v = v := shapeCast_self v _
theorem pay9_eq (v : FVec Ideal S1x1600 .f32) : k0_pay9 (F := Ideal) v = v := shapeCast_self v _
theorem pay10_eq (v : FVec Ideal S1x1600 .f32) : k0_pay10 (F := Ideal) v = v := shapeCast_self v _

theorem pay11_apply (v : FVec Ideal S400x1 .f32) (p : Fin 400) (q : Fin 1600) : k0_pay11 (F := Ideal) v (ix2 p q) = v (ix2 p 0) := by
  unfold k0_pay11
  rw [pay3_eq]
  exact bcast_col v _ p q

theorem pay12_apply (v : FVec Ideal S1x1600 .f32) (p : Fin 400) (q : Fin 1600) : k0_pay12 (F := Ideal) v (ix2 p q) = v (ix2 0 q) := by
  unfold k0_pay12
  rw [pay7_eq]
  exact broadcastTo_1b_ab_apply v _ p q

theorem pay24_apply (c w : FVec Ideal S400x1 .f32) (p : Fin 400) (q : Fin 1600) :
    k0_pay24 (F := Ideal) c w (ix2 p q) = hi (c (ix2 p 0)) (w (ix2 p 0)) := by
  unfold k0_pay24
  exact (bcast_col (k0_pay16 c w) _ p q).trans (pay16_apply c w p)

/-! ## What the body leaves at (p, q) of its output block -/

theorem hz : (![0, 0] : Fin 2 → Nat) = fun _ => 0 := funext fun a => by fin_cases a <;> rfl

/-- A load of a whole block reads the block. -/
theorem ld_logits (x0 : Vec Ideal S400x151 .f32) : View.ld x0 r0_0 = x0 := View.ld_unit_zero hz _ x0
theorem ld_onehot (x3 : Vec Ideal S151x1600 .bf16) : View.ld x3 r0_1 = x3 := View.ld_unit_zero hz _ x3

/-- THE BODY'S RESULT at (p, q), from its four input blocks: minus the softmax row p against column q of the one-hot
    table, plus five times the L1 distance of box row p and target column q, minus twice their generalized IoU. -/
theorem out_apply (x0 : Vec Ideal S400x151 .f32) (x1 : Vec Ideal S400x4 .f32) (x2 : Vec Ideal S4x1600 .f32) (x3 : Vec Ideal S151x1600 .bf16)
    (p : Fin 400) (q : Fin 1600) :
    out0_4 (F := Ideal) x0 x1 x2 x3 (ix2 p q)
      = (negOne * ∑ k : Fin 151, blkProb x0 p k * x3 (ix2 k q) + five * l1 (fun k => x1 (ix2 p k)) (fun k => x2 (ix2 k q)))
        - two * giou (fun k => x1 (ix2 p k)) (fun k => x2 (ix2 k q)) := by
  unfold out0_4
  rw [View.canon_unit_zero hz, ld_logits, ld_onehot]
  rw [pay1_apply, pay13_apply, pay2_apply]
  simp only [pay24_apply, pay22_apply, pay23_apply, pay14_apply, pay15_apply, pay16_apply, pay17_apply, pay18_apply, pay19_apply,
    pay20_apply, pay21_apply, pay11_apply, pay12_apply, pay3_eq, pay4_eq, pay5_eq, pay6_eq, pay7_eq, pay8_eq, pay9_eq, pay10_eq]
  simp only [ld_col x1 0 (by decide), ld_col x1 1 (by decide), ld_col x1 2 (by decide), ld_col x1 3 (by decide),
    ld_row x2 0 (by decide), ld_row x2 1 (by decide), ld_row x2 2 (by decide), ld_row x2 3 (by decide)]
  rfl

/-! ## The body's result as the cost of the rows and columns its blocks hold -/

/-- A block row that is row r of the logits has row r's softmax. -/
theorem blkProb_eq (v0 : FVec Ideal S400x151 .f32) (L : Logits) (p : Fin 400) (r : Fin 14400)
    (h : ∀ k : Fin 151, v0 (ix2 p k) = L (ix2 r k)) (k : Fin 151) : blkProb v0 p k = prob L r k := by
  have hf : (fun k : Fin 151 => v0 (ix2 p k)) = fun k => L (ix2 r k) := funext h
  have hm : blkMax v0 p = rowMax L r := by unfold blkMax rowMax; rw [hf]
  have he : ∀ k, blkExp v0 p k = expAt L r k := fun k => by unfold blkExp expAt; rw [h k, hm]
  unfold blkProb prob rowSum
  rw [he k, Finset.sum_congr rfl fun k' _ => he k']

/-- THE BODY'S RESULT at (p, q) IS THE COST at (r, q), when row p of the logits and boxes blocks is row r of the
    flattened arrays, column q of the transposed target block is target q, and column q of the table is the one-hot
    column of target q's label. -/
theorem out_cost_of (x0 : Vec Ideal S400x151 .f32) (x1 : Vec Ideal S400x4 .f32) (x2 : Vec Ideal S4x1600 .f32) (x3 : Vec Ideal S151x1600 .bf16)
    (L : Logits) (B : Boxes) (lbl : Fin 1600 → Fin 151) (T : TBoxes) (p : Fin 400) (r : Fin 14400) (q : Fin 1600)
    (h0 : ∀ k : Fin 151, x0 (ix2 p k) = L (ix2 r k)) (h1 : ∀ k : Fin 4, x1 (ix2 p k) = B (ix2 r k))
    (h2 : ∀ k : Fin 4, x2 (ix2 k q) = T (ix2 q k)) (h3 : ∀ k : Fin 151, x3 (ix2 k q) = (if k = lbl q then 1 else 0 : EReal)) :
    out0_4 (F := Ideal) x0 x1 x2 x3 (ix2 p q) = cost L B lbl T (ix2 r q) := by
  rw [out_apply]
  have hb : (fun k : Fin 4 => x1 (ix2 p k)) = boxOf B r := funext h1
  have hg : (fun k : Fin 4 => x2 (ix2 k q)) = tboxOf T q := funext h2
  have hc : ∑ k : Fin 151, blkProb x0 p k * x3 (ix2 k q) = prob L r (lbl q) := by
    rw [Finset.sum_congr rfl fun k _ => by rw [blkProb_eq x0 L p r h0 k]]
    exact sum_mul_onehot (fun k => prob L r k) (fun k => x3 (ix2 k q)) (lbl q) (by rw [h3, if_pos rfl])
      (fun k hk => by rw [h3, if_neg hk])
  rw [hb, hg, hc, negOne_mul]
  rfl

end Cert.MatchCost.Ker

end
-- ==== Proof.KernelValue.lean ====
/-
  The kernel's program, read as a value. Its host lines flatten the arguments — logits to [14400,151], boxes to
  [14400,4], target boxes to [1600,4] and then transposed to [4,1600], labels to [1600] — and build the one-hot table
  [151,1600] (entry (k, q) is 1 where class k is target q's label). The grid has 36 points; point t holds rows
  400t … 400t + 399 of the logits and boxes and the whole of the other two, and writes back rows 400t … 400t + 399 of the
  [14400,1600] result. Shown here: each block entry is the flattened array's entry; what point t writes back is block t
  of the cost matrix of the flattened arguments (the body's result from the body module); the 36 blocks cover the result
  array, so it ends as the cost matrix; the last host line recasts it to [16,900,1600]; and the run, read with those
  equations. The labels enter through a table lbl with label word j = the word of lbl j, which the precondition gives.
-/
import proofs.«429697_j25331717112271_2_alg».proof.Proof.Gen.KernelIdeal.Frame
import proofs.«429697_j25331717112271_2_alg».proof.Proof.KernelBody
import proofs.«429697_j25331717112271_2_alg».proof.Proof.Spec
import Idealize.ShloMosaic.Lib.Pipeline.Value
import Idealize.ShloMosaic.Lib.StableHlo.Run
import Idealize.ShloMosaic.Lib.ValueLayout
import Idealize.ShloMosaic.Lib.Tactic

noncomputable section

namespace Cert.MatchCost.KerValue

open Cert.KernelIdeal Cert.KernelIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The flattened arguments -/

/-- The logits as 14400 rows of 151 classes. -/
abbrev logits (c : Dev nD) : Logits :=
  shapeCast S14400x151 (m ((c : Thread nD τ).loc main_arg0) : S16x900x151.Idx → EReal) shapeCasts_S16x900x151_S14400x151
/-- The predicted boxes as 14400 rows of (cx, cy, w, h). -/
abbrev boxes (c : Dev nD) : Boxes :=
  shapeCast S14400x4 (m ((c : Thread nD τ).loc main_arg1) : S16x900x4.Idx → EReal) shapeCasts_S16x900x4_S14400x4
/-- The target boxes as 1600 rows of (cx, cy, w, h). -/
abbrev tboxes (c : Dev nD) : TBoxes :=
  shapeCast S1600x4 (m ((c : Thread nD τ).loc main_arg3) : S16x100x4.Idx → EReal) shapeCasts_S16x100x4_S1600x4
/-- The 1600 label words. -/
abbrev labels (c : Dev nD) : IVec S1600 32 :=
  shapeCast S1600 (m ((c : Thread nD τ).loc main_arg2) : S16x100.Idx → BitVec 32) shapeCasts_S16x100_S1600

/-! ## The arrays the region finds -/

theorem V_logits (c : Dev nD) : (V m c main_v0 : S14400x151.Idx → EReal) = logits m c := by
  show StableHlo.after hostOps0 (fun b => m (c, b)) (Proc.devRef .tc main_v0) = _
  after_results
  rfl

theorem V_boxes (c : Dev nD) : (V m c main_v1 : S14400x4.Idx → EReal) = boxes m c := by
  show StableHlo.after hostOps0 (fun b => m (c, b)) (Proc.devRef .tc main_v1) = _
  after_results
  rfl

theorem V_tboxes (c : Dev nD) : (V m c main_v3 : S4x1600.Idx → EReal) = transpose S4x1600 [1, 0] (tboxes m c) transposes_S1600x4_S4x1600_1_0 := by
  show StableHlo.after hostOps0 (fun b => m (c, b)) (Proc.devRef .tc main_v3) = _
  after_results
  rfl

theorem V_onehot (c : Dev nD) : (V m c main_v11 : S151x1600.Idx → EReal) =
    uitofp (F := Ideal) .bf16 (cmpi .eq
      (broadcastInDim S151x1600 ![0, 1] bcast_S151x1_S151x1600_0_1 (broadcastInDim S151x1 ![0] bcast_S151_S151x1_0 (iotaInDim S151 32 0)))
      (broadcastInDim S151x1600 ![0, 1] bcast_S1x1600_S151x1600_0_1 (broadcastInDim S1x1600 ![1] bcast_S1600_S1x1600_1 (labels m c)))) := by
  show StableHlo.after hostOps0 (fun b => m (c, b)) (Proc.devRef .tc main_v11) = _
  after_results
  rfl

/-! ## The one-hot table -/

/-- The words of two class numbers are equal exactly when the numbers are. -/
theorem word_beq (a b : Fin 151) : (BitVec.ofNat 32 a.val == BitVec.ofNat 32 b.val) = decide (a = b) := by
  by_cases h : a = b
  · subst h; simp
  · have hne : BitVec.ofNat 32 a.val ≠ BitVec.ofNat 32 b.val := by
      intro e
      have e' := congrArg BitVec.toNat e
      rw [BitVec.toNat_ofNat, BitVec.toNat_ofNat, Nat.mod_eq_of_lt (by have := a.isLt; omega),
        Nat.mod_eq_of_lt (by have := b.isLt; omega)] at e'
      exact h (Fin.ext e')
    simp [h, hne]

/-- An entry of the one-hot table: 1 where the class is the target's label, 0 elsewhere. -/
theorem onehot_word (w : BitVec 32) (l : Fin 151) (hw : w = BitVec.ofNat 32 l.val) (k : Fin 151) :
    (FloatOps.uitofp (F := Ideal) .bf16 (IntOp.cmpi .eq (BitVec.ofNat 32 k.val) w) : EReal) = if k = l then 1 else 0 := by
  subst hw
  show (((BitVec.ofBool (BitVec.ofNat 32 k.val == BitVec.ofNat 32 l.val)).toNat : ℝ) : EReal) = _
  rw [word_beq]
  by_cases h : k = l
  · simp [h]
  · simp [h]

theorem onehot_apply (c : Dev nD) (lbl : Fin 1600 → Fin 151)
    (hl : ∀ j : Fin 1600, labels m c (ix1 j) = BitVec.ofNat 32 (lbl j).val) (k : Fin 151) (q : Fin 1600) :
    (V m c main_v11 : S151x1600.Idx → EReal) (ix2 k q) = (if k = lbl q then 1 else 0 : EReal) := by
  rw [V_onehot]
  refine Eq.trans ?_ (onehot_word (labels m c (ix1 q)) (lbl q) (hl q) k)
  rfl

/-! ## The windows' blocks at a grid point -/

/-- The windows' block indices over the grid: the logits, the boxes and the output move one block of 400 rows per
    point; the target boxes and the one-hot table stay whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The row of the flattened arrays that row p of point t's block is. -/
def rowOf (t : Fin cfg0.N) (p : Fin 400) : Fin 14400 :=
  ⟨t.val * 400 + p.val, by have h1 := t.isLt; have h2 : cfg0.N = 36 := N_0; have h3 := p.isLt; omega⟩

theorem blk_logits (c : Dev nD) (t : Fin cfg0.N) (p : Fin 400) (k : Fin 151) :
    (iblk m c 0 t : Vec Ideal S400x151 .f32) (ix2 p k) = logits m c (ix2 (rowOf t p) k) := by
  obtain ⟨e0, e1, -⟩ := idx_facts t
  unfold iblk
  rw [View.read_apply]
  show (V m c main_v0 : S14400x151.Idx → EReal) _ = _
  rw [V_logits]
  congr 1
  funext a
  apply Fin.ext
  match a with
  | ⟨0, _⟩ => show win0_0.index t (0 : Fin 2) * 400 + 1 * p.val = t.val * 400 + p.val; rw [e0]; omega
  | ⟨1, _⟩ => show win0_0.index t (1 : Fin 2) * 151 + 1 * k.val = k.val; rw [e1]; omega

theorem blk_boxes (c : Dev nD) (t : Fin cfg0.N) (p : Fin 400) (k : Fin 4) :
    (iblk m c 1 t : Vec Ideal S400x4 .f32) (ix2 p k) = boxes m c (ix2 (rowOf t p) k) := by
  obtain ⟨-, -, e0, e1, -⟩ := idx_facts t
  unfold iblk
  rw [View.read_apply]
  show (V m c main_v1 : S14400x4.Idx → EReal) _ = _
  rw [V_boxes]
  congr 1
  funext a
  apply Fin.ext
  match a with
  | ⟨0, _⟩ => show win0_1.index t (0 : Fin 2) * 400 + 1 * p.val = t.val * 400 + p.val; rw [e0]; omega
  | ⟨1, _⟩ => show win0_1.index t (1 : Fin 2) * 4 + 1 * k.val = k.val; rw [e1]; omega

theorem blk_tboxes (c : Dev nD) (t : Fin cfg0.N) (k : Fin 4) (q : Fin 1600) :
    (iblk m c 2 t : Vec Ideal S4x1600 .f32) (ix2 k q) = tboxes m c (ix2 q k) := by
  obtain ⟨-, -, -, -, e0, e1, -⟩ := idx_facts t
  unfold iblk
  rw [View.read_apply]
  show (V m c main_v3 : S4x1600.Idx → EReal) _ = _
  rw [V_tboxes]
  refine Eq.trans ?_ (transpose_ix2_apply (tboxes m c) transposes_S1600x4_S4x1600_1_0 k q)
  congr 1
  funext a
  apply Fin.ext
  match a with
  | ⟨0, _⟩ => show win0_2.index t (0 : Fin 2) * 4 + 1 * k.val = k.val; rw [e0]; omega
  | ⟨1, _⟩ => show win0_2.index t (1 : Fin 2) * 1600 + 1 * q.val = q.val; rw [e1]; omega

theorem blk_onehot (c : Dev nD) (lbl : Fin 1600 → Fin 151)
    (hl : ∀ j : Fin 1600, labels m c (ix1 j) = BitVec.ofNat 32 (lbl j).val) (t : Fin cfg0.N) (k : Fin 151) (q : Fin 1600) :
    (iblk m c 3 t : Vec Ideal S151x1600 .bf16) (ix2 k q) = (if k = lbl q then 1 else 0 : EReal) := by
  obtain ⟨-, -, -, -, -, -, e0, e1, -⟩ := idx_facts t
  unfold iblk
  rw [View.read_apply]
  show (V m c main_v11 : S151x1600.Idx → EReal) _ = _
  refine Eq.trans ?_ (onehot_apply m c lbl hl k q)
  congr 1
  funext a
  apply Fin.ext
  match a with
  | ⟨0, _⟩ => show win0_3.index t (0 : Fin 2) * 151 + 1 * k.val = k.val; rw [e0]; omega
  | ⟨1, _⟩ => show win0_3.index t (1 : Fin 2) * 1600 + 1 * q.val = q.val; rw [e1]; omega

/-! ## What a point writes back, and the final array -/

/-- The cost matrix of the flattened arguments, for a label table. -/
abbrev costOf (c : Dev nD) (lbl : Fin 1600 → Fin 151) : Cost := cost (logits m c) (boxes m c) lbl (tboxes m c)

/-- WHAT POINT t WRITES BACK is block t (rows 400t … 400t + 399, all 1600 columns) of the cost matrix. -/
theorem flushed_eq (c : Dev nD) (lbl : Fin 1600 → Fin 151)
    (hl : ∀ j : Fin 1600, labels m c (ix1 j) = BitVec.ofNat 32 (lbl j).val) (t : Fin cfg0.N) :
    (dats m 0 c).flushed 4 t = ((cfg0.win 4).blk t).view.read (Elt Ideal) (costOf m c lbl) := by
  show (cfg0.win 4).cut (grid0.coords t) ((dats m 0 c).after 4 t) = _
  rw [after0_4]
  obtain ⟨-, -, -, -, -, -, -, -, e0, e1⟩ := idx_facts t
  funext j
  have hj : j = ix2 (j 0) (j 1) := eq_ix2 j
  show out0_4 (F := Ideal) (iblk m c 0 t) (iblk m c 1 t) (iblk m c 2 t) (iblk m c 3 t) j = costOf m c lbl (((cfg0.win 4).blk t).view.emb j)
  rw [hj]
  refine (Ker.out_cost_of (iblk m c 0 t) (iblk m c 1 t) (iblk m c 2 t) (iblk m c 3 t) (logits m c) (boxes m c) lbl (tboxes m c)
    (j 0) (rowOf t (j 0)) (j 1) (blk_logits m c t (j 0)) (blk_boxes m c t (j 0)) (fun k => blk_tboxes m c t k (j 1))
    (fun k => blk_onehot m c lbl hl t k (j 1))).trans ?_
  show cost _ _ _ _ _ = cost _ _ _ _ _
  congr 1
  funext a
  apply Fin.ext
  match a with
  | ⟨0, _⟩ => show t.val * 400 + (j 0).val = win0_4.index t (0 : Fin 2) * 400 + 1 * (j 0).val; rw [e0]; omega
  | ⟨1, _⟩ => show (j 1).val = win0_4.index t (1 : Fin 2) * 1600 + 1 * (j 1).val; rw [e1]; omega

/-- An entry of the output array is in point t's block exactly when its coordinates are in the block's ranges. -/
theorem mem_blk (t : Fin cfg0.N) (i : S14400x1600.Idx) :
    i ∈ ((cfg0.win 4).blk t).view.set ↔ ∀ a : Fin 2, win0_4.index t a * S400x1600.size a ≤ (i a).val ∧ (i a).val < win0_4.index t a * S400x1600.size a + S400x1600.size a := by
  show i ∈ ((View.whole main_v12).slice (win0_4.rect t)).set ↔ _
  rw [View.set_slice_whole, Rect.mem_set_unit]
  exact Iff.rfl

/-- Every entry of the output array lies in the block of the point its row falls in (row / 400). -/
theorem cover (i : S14400x1600.Idx) : ∃ t : Fin cfg0.N, (cfg0.win 4).flush t = true ∧ i ∈ ((cfg0.win 4).blk t).view.set := by
  have h0 : (i 0).val < 14400 := (i 0).isLt
  have h1 : (i 1).val < 1600 := (i 1).isLt
  have hN : cfg0.N = 36 := N_0
  let t : Fin cfg0.N := ⟨(i 0).val / 400, by omega⟩
  have ht : t.val = (i 0).val / 400 := rfl
  obtain ⟨-, -, -, -, -, -, -, -, e0, e1⟩ := idx_facts t
  refine ⟨t, flush0_4 t, ?_⟩
  rw [mem_blk]
  intro a
  match a with
  | ⟨0, _⟩ =>
    show win0_4.index t (0 : Fin 2) * 400 ≤ (i 0).val ∧ (i 0).val < win0_4.index t (0 : Fin 2) * 400 + 400
    rw [e0, ht]; omega
  | ⟨1, _⟩ =>
    show win0_4.index t (1 : Fin 2) * 1600 ≤ (i 1).val ∧ (i 1).val < win0_4.index t (1 : Fin 2) * 1600 + 1600
    rw [e1]; omega

/-- THE OUTPUT ARRAY after the region is the cost matrix. -/
theorem final (c : Dev nD) (lbl : Fin 1600 → Fin 151)
    (hl : ∀ j : Fin 1600, labels m c (ix1 j) = BitVec.ofNat 32 (lbl j).val) :
    (dats m 0 c).arrAt 4 cfg0.N = costOf m c lbl :=
  (dats m 0 c).arrAt_eq_of_cover 4 (costOf m c lbl) (fun t _ => flushed_eq m c lbl hl t) cover

/-! ## The last reshape, and the run -/

/-- The result buffer after the line that follows the region: the cost matrix recast to [16,900,1600]. -/
theorem tail_eq (c : Dev nD) (lbl : Fin 1600 → Fin 151)
    (hl : ∀ j : Fin 1600, labels m c (ix1 j) = BitVec.ofNat 32 (lbl j).val) :
    Pipeline.afterTail₀ cfgs (dats m) 0 (V0 m) [hostOps1] c main_v13
      = shapeCast S16x900x1600 (costOf m c lbl) shapeCasts_S14400x1600_S16x900x1600 := by
  unfold Pipeline.afterTail₀
  show StableHlo.after hostOps1 _ (Proc.devRef .tc main_v13) = _
  after_results
  have e : (Pipeline.withArrays (cfgs 0).spec c (V0 m c) (fun w => (dats m 0 c).arrAt w (cfgs 0).N) (Proc.tc.devRef main_v12)
      : S14400x1600.Idx → EReal) = costOf m c lbl :=
    (Pipeline.withArrays_arr spec0 launch0.win.arr_inj c _ _ 4).trans (final m c lbl hl)
  exact congrArg (fun X : S14400x1600.Idx → EReal => shapeCast S16x900x1600 X shapeCasts_S14400x1600_S16x900x1600) e

/-- THE RUN, READ: every weakly fair execution of the kernel's program ends with the result at the cost matrix of the
    flattened arguments, recast to [16,900,1600], and the arguments unchanged. -/
theorem run (lbl : Dev nD → Fin 1600 → Fin 151)
    (hl : ∀ (c : Dev nD) (j : Fin 1600), labels m c (ix1 j) = BitVec.ofNat 32 (lbl c j).val) :
    θ_run defs (onTc (τ := τ) (main (F := Ideal))) ⟨m, fun _ => 0, ρ⟩ fun r => ∀ c : Dev nD,
      r.2.mem ((c.tc : Thread nD τ).loc main_v13) = shapeCast S16x900x1600 (costOf m c (lbl c)) shapeCasts_S14400x1600_S16x900x1600
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v13 (Pipeline.mem_restRefs_of main_v13 (by decide) (by decide))).trans (tail_eq m c (lbl c) (hl c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.MatchCost.KerValue

end
-- ==== Proof.lean ====
/-
  The certificate of the matching-cost kernel against its jnp reference, over the extended reals.

  Under the precondition (every float input finite, every label in [0, 151)) both programs end with the same result:
  the [16,900,1600] recast of the cost matrix of the flattened arguments,

    cost r j = −softmax(logits r)(label j) + 5 · ‖box r − tbox j‖₁ − 2 · GIoU(box r, tbox j).

  The kernel computes the class term as a matrix product of the softmax block with a one-hot table of the labels; a sum
  of products against a one-hot column is the selected entry, with no finiteness needed. The reference gathers the softmax
  column at the label; for a label in range the wrap-around of negative indices and the clamp do nothing. The box terms
  are the same expressions entry by entry, up to the order of the three weighted terms and of max with 0. The label range is
  what the precondition adds to finiteness: outside it the reference indexes out of range (and clamps or wraps) while the
  one-hot column is all zero. The three frames: the kernel's two are the generated frame certificates; the reference's
  is its generated run with the result dropped. The idealization rewrote no operation.
-/
import proofs.«429697_j25331717112271_2_alg».proof.Defs
import proofs.«429697_j25331717112271_2_alg».proof.Proof.Gen.Kernel
import proofs.«429697_j25331717112271_2_alg».proof.Proof.Gen.Kernel.Skeleton
import proofs.«429697_j25331717112271_2_alg».proof.Proof.Gen.Kernel.Launch
import proofs.«429697_j25331717112271_2_alg».proof.Proof.Gen.Kernel.Points
import proofs.«429697_j25331717112271_2_alg».proof.Proof.Gen.Kernel.Frame
import proofs.«429697_j25331717112271_2_alg».proof.Proof.Gen.KernelIdeal
import proofs.«429697_j25331717112271_2_alg».proof.Proof.Gen.KernelIdeal.Skeleton
import proofs.«429697_j25331717112271_2_alg».proof.Proof.Gen.KernelIdeal.Launch
import proofs.«429697_j25331717112271_2_alg».proof.Proof.Gen.KernelIdeal.Points
import proofs.«429697_j25331717112271_2_alg».proof.Proof.Gen.KernelIdeal.Frame
import proofs.«429697_j25331717112271_2_alg».proof.Proof.Gen.ReferenceIdeal
import proofs.«429697_j25331717112271_2_alg».proof.Proof.Gen.Pre_finite_inputs
import proofs.«429697_j25331717112271_2_alg».proof.Proof.Gen.ReferenceIdeal.Run
import proofs.«429697_j25331717112271_2_alg».proof.Proof.Gen.ReferenceIdeal.Read
import proofs.«429697_j25331717112271_2_alg».proof.Proof.Spec
import proofs.«429697_j25331717112271_2_alg».proof.Proof.PreDecode
import proofs.«429697_j25331717112271_2_alg».proof.Proof.RefValue
import proofs.«429697_j25331717112271_2_alg».proof.Proof.KernelValue
import Idealize.ShloMosaic.Adequacy
import Idealize.ShloMosaic.Init

noncomputable section

namespace Cert.Proof

open Idealize.ShloMosaic Idealize.ShloMosaic.ValueIdx Idealize.ShloMosaic.TcCoe Idealize.SL.Sem
open Cert.MatchCost

/-- Under the precondition the flattened label words spell a table of class numbers: flattened position j is position
    (j / 100, j % 100) of the [16,100] labels, whose word the precondition puts in [0, 151). -/
theorem labels_spelt (m : (ℓ : Loc Cert.KernelIdeal.nD Cert.KernelIdeal.τ Cert.KernelIdeal.sig) → Buf (Elt Ideal) ℓ)
    (h : Cert.Pre_KernelIdeal m) (c : Dev Cert.KernelIdeal.nD) :
    ∃ lbl : Fin 1600 → Fin 151, ∀ j : Fin 1600, KerValue.labels m c (ix1 j) = BitVec.ofNat 32 (lbl j).val := by
  have hw : ∀ i : Cert.KernelIdeal.S16x100.Idx, ∃ l : Fin 151,
      (m ((c.tc : Thread Cert.KernelIdeal.nD Cert.KernelIdeal.τ).loc Cert.KernelIdeal.main_arg2) : Cert.KernelIdeal.S16x100.Idx → BitVec 32) i
        = BitVec.ofNat 32 l.val :=
    fun i => Cert.MatchCost.Pre.label_words _ _ _ _ (h c) i
  choose f hf using hw
  let src : Fin 1600 → Cert.KernelIdeal.S16x100.Idx := fun j =>
    ix2 ⟨j.val / 100, by have := j.isLt; omega⟩ ⟨j.val % 100, Nat.mod_lt _ (by decide)⟩
  refine ⟨fun j => f (src j), fun j => ?_⟩
  rw [← hf (src j)]
  exact shapeCast_apply _ Cert.KernelIdeal.Facts₀.shapeCasts_S16x100_S1600 (ix1 j) (src j)
    (by rw [Shape.rowMajor_val_two, Shape.rowMajor_val_one]; show (j.val / 100) * 100 + j.val % 100 = j.val; omega)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end at the recast cost matrix of the flattened arguments:
    the kernel by its run read as a value, the reference by its generated run and its stages read entry by entry. -/
theorem algebraic : Cert.algebraic_KernelIdeal_ReferenceIdeal := by
  intro m ρ m' ρ' hpre hagree
  have hlbl := fun c => labels_spelt m hpre c
  choose lbl hl using hlbl
  refine ⟨fun c => shapeCast Cert.KernelIdeal.S16x900x1600 (KerValue.costOf m c (lbl c)) Cert.KernelIdeal.Facts₀.shapeCasts_S14400x1600_S16x900x1600,
    KerValue.run m ρ lbl hl, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v163_eq, (hagree c).1, (hagree c).2.1, (hagree c).2.2.1, (hagree c).2.2.2]
  show shapeCast _ (Cert.ReferenceIdeal.Read.val_main_v162 (F := Ideal) _ _ _ _) _ = _
  rw [Cert.MatchCost.Ref.ref_cost _ _ _ _ (lbl c) (hl c)]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
